-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S8192x4096 : Shape := ⟨2, ![8192, 4096]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  let main_c_6 : IVec S_ 32 := constantI S_ 32 4096#32
  let main_v18 : IVec S8192 32 := broadcastInDim S8192 ![] bcast_S_S8192 main_c_6
  let main_v19 : IVec S8192 1 := cmpi .slt main_arg3 main_v18
  let main_c_7 : IVec S_ 1 := constantI S_ 1 1#1
  let main_v20 : IVec S_ 1 := (fun x v => Host.reduce IntOp.andi x v reducesTo_S8192_S_d0 h_S_) main_v19 main_c_7
  let main_v21 : IVec S_ 1 := andi main_v17 main_v20
  main_v21

def fn {F : FTy → Type} [FloatOps F] (main_arg0 : FVec F S8192x1024 .f32) (main_arg1 : FVec F S4096x1024 .f32) (main_arg2 : FVec F S8192x4096 .f32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg3 main_v14
  let main_c_5 : IVec S_ 1 := constantI S_ 1 1#1
  fn_part1 (F := F) main_arg3 main_v13 main_v15 main_c_5
-- ==== Kernel.lean ====
abbrev S8192x1024 : Shape := ⟨2, ![8192, 1024]⟩
abbrev S4096x1024 : Shape := ⟨2, ![4096, 1024]⟩
abbrev S8192x4096 : Shape := ⟨2, ![8192, 4096]⟩
abbrev S8192 : Shape := ⟨1, ![8192]⟩
abbrev S1024x1024 : Shape := ⟨2, ![1024, 1024]⟩
abbrev S1024 : Shape := ⟨1, ![1024]⟩
abbrev S1024x1 : Shape := ⟨2, ![1024, 1]⟩
abbrev S8192x1 : Shape := ⟨2, ![8192, 1]⟩
abbrev S512x1024 : Shape := ⟨2, ![512, 1024]⟩
abbrev S1024x512 : Shape := ⟨2, ![1024, 512]⟩
abbrev S_ : Shape := ⟨0, ![]⟩

abbrev nBuf : Space → Nat
  | .hbm => 12
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S8192, .i32⟩
  | .hbm, ⟨4, _⟩ => ⟨S8192x1024, .bf16⟩
  | .hbm, ⟨5, _⟩ => ⟨S4096x1024, .bf16⟩
  | .hbm, ⟨6, _⟩ => ⟨S8192x1, .i32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x512, .f32⟩
  | .local _ .vmem, ⟨13, _⟩ => ⟨S1024x512, .f32⟩
  | .local _ .vmem, ⟨14, _⟩ => ⟨S1024x1, .i32⟩
  | .local _ .vmem, ⟨15, _⟩ => ⟨S1024x1, .i32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_scratch0 : Ref sig .tc := ⟨.vmem, 18, rfl⟩
abbrev cc2_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_21 : BitVec 32 := 0#32
  let v46 : BitVec 1 := Scalar.cmpi .ne v45 c0_i32_21
  v46

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  iota_S1024x512_d1_w32 : S1024x512.Iotas .tc 32 [1]
  broadcasts_S1024x1_S1024x512 : S1024x1.Broadcasts S1024x512
  natLt_1_32 : 1 < 32
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  reducesTo_S8192x1_S_d0_1 : S8192x1.ReducesTo [0, 1] S_
  h_S_ : 0 < S_.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x1024.size a
  hwx2_1 : ∀ i : grid2.Coords, EltTy.bits .bf16 = 32 ∨ (Rect.block (s := S4096x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x4096.size a
  hwx2_2 : ∀ i : grid2.Coords, EltTy.bits .f32 = 32 ∨ (Rect.block (s := S8192x4096) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .i32 = 32 ∨ (Rect.block (s := S8192x1) S1024x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S4096x1024 : Shape := ⟨2, ![4096, 1024]⟩
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S4096 : Shape := ⟨1, ![4096]⟩
abbrev S4096x1 : Shape := ⟨2, ![4096, 1]⟩
abbrev S8192x2 : Shape := ⟨2, ![8192, 2]⟩
abbrev S1x4096 : Shape := ⟨2, ![1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x1, .i32⟩
  | .hbm, ⟨45, _⟩ => ⟨S8192x2, .i32⟩
  | .hbm, ⟨46, _⟩ => ⟨S8192, .f32⟩
  | .hbm, ⟨47, _⟩ => ⟨S8192x1, .i32⟩
  | .hbm, ⟨48, _⟩ => ⟨S1x4096, .i32⟩
  | .hbm, ⟨49, _⟩ => ⟨S8192x4096, .i32⟩
  | .hbm, ⟨50, _⟩ => ⟨S8192x4096, .i32⟩
  | .hbm, ⟨51, _⟩ => ⟨S8192x4096, .i1⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S8192x4096 : S_.BroadcastsInDim S8192x4096 (![] : Fin 0 → Fin S8192x4096.rank)
  bcast_S_S8192 : S_.BroadcastsInDim S8192 (![] : Fin 0 → Fin S8192.rank)
  concatenates_S8192x1_S8192x1_S8192x2_d1 : Shape.Concatenates [S8192x1, S8192x1] S8192x2 1
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  reducesTo_S8192_S_d0 : S8192.ReducesTo [0] S_
  dot_S8192x1024_S4096x1024_S8192x4096_1_1_0_0_n_n_wf : DotDims.WF S8192x1024 S4096x1024 S8192x4096 [1] [1] [0] [0] [] []
  gather_S8192x4096_S8192x2_S8192_n_01_n_n_01_1_11_wf : GatherDims.WF S8192x4096 S8192x2 S8192 [] [0, 1] [] [0, 1] [] 1 ![1, 1]

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def gather_S8192x4096_S8192x2_S8192_n_01_n_n_01_1_11 : GatherDims S8192x4096 S8192x2 S8192 where
  offsetDims := []
  collapsedSliceDims := [0, 1]
  operandBatchingDims := []
  startIndicesBatchingDims := []
  startIndexMap := [0, 1]
  indexVectorDim := 1
  sliceSizes := ![1, 1]
  wf := gather_S8192x4096_S8192x2_S8192_n_01_n_n_01_1_11_wf

class Facts : Prop extends Facts₀ where

variable [Facts]
-- ==== Proof.KRegion0.lean ====
/-
  The first normalisation call of the kernel program, as one pipeline: what each grid point's body
  leaves in its staging buffers, as pure functions of the arrays the call is entered with.

  The call tiles the audio matrix into eight blocks of 1024 rows. At a point the body loads the whole input block
  `x`, and stores into the whole output block the rows of `x` divided by their clamped Euclidean norms (the
  payload `k0_pay1 x`). It keeps nothing between points and signals nobody, so the invariant carried through the
  call is the part of the core's state the body may not describe, unchanged.
-/
import proofs.«421096_j23459111371346_1_alg».proof.Proof.Gen.Kernel.Launch
import proofs.«421096_j23459111371346_1_alg».proof.Proof.Gen.Kernel.Skeleton
import proofs.«421096_j23459111371346_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the call finds them, per core
variable (V : (c : Dev nD) → (b : Ref sig .tc) → Buf (Elt F) ((c : Thread nD τ).loc b))

/-- Window `w`'s block at point `t`: the rows `1024·t … 1024·t + 1023` of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle every load and store of the body goes through. -/
abbrev rw0 : Rect S1024x1024 := Rect.unit (s := S1024x1024) ![0, 0] S1024x1024.size inb_S1024x1024_S1024x1024_0_0

theorem rw0_zero : (![0, 0] : Fin S1024x1024.rank → Nat) = fun _ => 0 := by
  funext a; match a with | ⟨0, _⟩ => rfl | ⟨1, _⟩ => rfl

set_option maxHeartbeats 1000000 in
/-- The body on whole staging buffers, the input's at contents `x0` and the output's at anything: it ends with the
    input's unchanged and the output's at the normalised rows of `x0`. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero rw0_zero inb_S1024x1024_S1024x1024_0_0 y⟩),
    View.canon_unit_zero rw0_zero]
  simp only [View.readAt_eq_ld, View.ld_unit_zero (S := S1024x1024) rw0_zero]

/-- The input window's current staging buffer holds its block at every point, for any proof data whose array is the
    call's entry contents and whose body leaves the block in place: the window is fetched whole at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The call's proof data on core `c`: the arrays as the call finds them; after the body at point `t` the input's
    buffer still at its block and the output's at the normalised rows of that block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second normalisation call of the kernel program, as one pipeline: what each grid point's body
  leaves in its staging buffers, as pure functions of the arrays the call is entered with.

  The call tiles the text matrix into four blocks of 1024 rows. At a point the body loads the whole input block
  `x`, and stores into the whole output block the rows of `x` divided by their clamped Euclidean norms (the
  payload `k1_pay1 x`). It keeps nothing between points and signals nobody, so the invariant carried through the
  call is the part of the core's state the body may not describe, unchanged.
-/
import proofs.«421096_j23459111371346_1_alg».proof.Proof.Gen.Kernel.Launch
import proofs.«421096_j23459111371346_1_alg».proof.Proof.Gen.Kernel.Skeleton
import proofs.«421096_j23459111371346_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the call finds them, per core
variable (V : (c : Dev nD) → (b : Ref sig .tc) → Buf (Elt F) ((c : Thread nD τ).loc b))

/-- Window `w`'s block at point `t`: the rows `1024·t … 1024·t + 1023` of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangle every load and store of the body goes through. -/
abbrev rw1 : Rect S1024x1024 := Rect.unit (s := S1024x1024) ![0, 0] S1024x1024.size inb_S1024x1024_S1024x1024_0_0

theorem rw1_zero : (![0, 0] : Fin S1024x1024.rank → Nat) = fun _ => 0 := by
  funext a; match a with | ⟨0, _⟩ => rfl | ⟨1, _⟩ => rfl

set_option maxHeartbeats 1000000 in
/-- The body on whole staging buffers, the input's at contents `x0` and the output's at anything: it ends with the
    input's unchanged and the output's at the normalised rows of `x0`. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k1_pay1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero rw1_zero inb_S1024x1024_S1024x1024_0_0 y⟩),
    View.canon_unit_zero rw1_zero]
  simp only [View.readAt_eq_ld, View.ld_unit_zero (S := S1024x1024) rw1_zero]

/-- The input window's current staging buffer holds its block at every point, for any proof data whose array is the
    call's entry contents and whose body leaves the block in place: the window is fetched whole at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The call's proof data on core `c`: the arrays as the call finds them; after the body at point `t` the input's
    buffer still at its block and the output's at the normalised rows of that block; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  The contrastive call of the kernel program, as one pipeline over its 8 × 8 grid (row tile `bi`, column
  tile `ci`; point `t = 8·bi + ci`): what each point's body leaves in its staging buffers and in the two scratch
  columns it carries from point to point, as pure functions of the arrays the call is entered with.

  At a point the body resets both scratch columns when `ci = 0`; adds to the first the row sums, over the tile's 512
  columns, of exp(logit)·(1 - w)·(1 - mask) and to the second those of logit·mask; and when `ci = 7` stores into the
  output block  -pos + log (sum + exp pos)  of the two columns. The output window is written back only at `ci = 7`.
-/
import proofs.«421096_j23459111371346_1_alg».proof.Proof.Gen.Kernel.Launch
import proofs.«421096_j23459111371346_1_alg».proof.Proof.Gen.Kernel.Skeleton
import proofs.«421096_j23459111371346_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the call finds them, per core
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch columns the body carries: the weighted negative sum and the positive logit. -/
abbrev scM2_0 : Memref sig .tc .vmem S1024x1 .f32 := Memref.whole cc2_scratch0
abbrev scM2_1 : Memref sig .tc .vmem S1024x1 .f32 := Memref.whole cc2_scratch1

/-- Both columns as the reset leaves them: zeros. -/
def init2 : Vec F S1024x1 .f32 × Vec F S1024x1 .f32 := (k2_pay3, k2_pay4)

/-- One point's accumulation: from the point's coordinates, its four input blocks (unit audio rows `x0`, unit text
    rows `x1`, weights `x2`, positive indices `x3`) and the columns `s` it starts from, the columns it leaves. -/
def step2 (i : grid2.Coords) (x0 : Vec F S1024x1024 .bf16) (x1 : Vec F S512x1024 .bf16) (x2 : Vec F S1024x512 .f32) (x3 : Vec F S1024x1 .i32)
    (s : Vec F S1024x1 .f32 × Vec F S1024x1 .f32) : Vec F S1024x1 .f32 × Vec F S1024x1 .f32 :=
  (k2_pay7 i x0 x1 x3 x2 s.1, k2_pay1 (k2_pay5 x0 x1) (k2_pay6 i x3) s.2)

/-- The loss column the last column tile stores, from the two columns. -/
def fin2 (s : Vec F S1024x1 .f32 × Vec F S1024x1 .f32) : Vec F S1024x1 .f32 := k2_pay2 s.1 s.2 s.2

/-- THE ACCUMULATION: the scratch columns after the body at position `n` — the step from zeros where the column tile
    is the first of its row tile (`n % 8 = 0`), else from what position `n - 1` left. -/
def sAt2 (c : Dev nD) : (n : ℕ) → n < cfg2.N → Vec F S1024x1 .f32 × Vec F S1024x1 .f32
  | 0, hn => step2 (grid2.coords ⟨0, hn⟩) (iblk2 V c 0 ⟨0, hn⟩) (iblk2 V c 1 ⟨0, hn⟩) (iblk2 V c 2 ⟨0, hn⟩) (iblk2 V c 3 ⟨0, hn⟩) init2
  | n + 1, hn => step2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 8 = 0 then init2 else sAt2 c n (Nat.lt_of_succ_lt hn))

/-- At a first column tile the step starts from zeros. -/
theorem sAt2_first (c : Dev nD) (t : Fin cfg2.N) (h : t.val % 8 = 0) :
    sAt2 V c t.val t.isLt = step2 (grid2.coords t) (iblk2 V c 0 t) (iblk2 V c 1 t) (iblk2 V c 2 t) (iblk2 V c 3 t) init2 := by
  obtain ⟨n, hn⟩ := t
  cases n with
  | zero => rfl
  | succ n => show step2 _ _ _ _ _ (if (n + 1) % 8 = 0 then init2 else _) = _; rw [if_pos h]

/-- At a later column tile it starts from what the point before left. -/
theorem sAt2_later (c : Dev nD) (t : Fin cfg2.N) (h : ¬t.val % 8 = 0) :
    sAt2 V c t.val t.isLt = step2 (grid2.coords t) (iblk2 V c 0 t) (iblk2 V c 1 t) (iblk2 V c 2 t) (iblk2 V c 3 t)
      (sAt2 V c (t.val - 1) (Nat.lt_of_le_of_lt (Nat.sub_le _ _) t.isLt)) := by
  obtain ⟨n, hn⟩ := t
  cases n with
  | zero => exact absurd (Nat.zero_mod _) h
  | succ n => show step2 _ _ _ _ _ (if (n + 1) % 8 = 0 then init2 else _) = _; rw [if_neg h]; rfl

/-- The core's scoped buffers other than the two scratch columns — the staging buffers of the two normalisation
    calls —, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The scoped state the launch hands the call, with the two scratch columns set apart, each at some contents. -/
theorem PhiA2_eq (c : Dev nD) :
    (Pipeline.ΦA spec2 c : sProp 𝕄)
      = iprop((∃ d, owns (c : Thread nD τ) scM2_0 fullShare d) ∗ (∃ d, owns (c : Thread nD τ) scM2_1 fullShare d)
          ∗ others2 (F := F) c ∗ (∃ r, prngReg c r)) := by
  unfold Pipeline.ΦA others2; rw [scopedRest2_eq]; simp only [scM2_0, scM2_1, owns_whole]
  refine BI.equiv_iff.mp ⟨?_, ?_⟩
  · show (_ : sProp 𝕄) ⊢ _
    iintro ⟨⟨A0, A1, A2, A3, A4, A5, A6, A7, S0, S1⟩, Hg⟩
    isplitl [S0]; · iexact S0
    isplitl [S1]; · iexact S1
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    iexact Hg
  · show (_ : sProp 𝕄) ⊢ _
    iintro ⟨S0, S1, ⟨A0, A1, A2, A3, A4, A5, A6, A7⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [S0]; · iexact S0
      iexact S1
    iexact Hg

/-- The invariant the call carries before position `n`: before the first point the scoped state as the launch hands
    it; afterwards the two scratch columns at what the point before left, the rest of that state at anything. -/
def PhiS2 (c : Dev nD) : (n : ℕ) → n ≤ cfg2.N → sProp 𝕄
  | 0, _ => Pipeline.ΦA spec2 c
  | n + 1, hn => iprop(owns (c : Thread nD τ) scM2_0 fullShare ((sAt2 V c n hn).1) ∗ owns (c : Thread nD τ) scM2_1 fullShare ((sAt2 V c n hn).2)
      ∗ others2 (F := F) c ∗ (∃ r, prngReg c r))

/-- The call's proof data on core `c`: the arrays as the call finds them; after the body at point `t` each input's
    buffer still at its block and the output's at the loss column of the scratch columns there (consulted only where
    the window is written back, at the last column tiles); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => fin2 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = fin2 (sAt2 V c t.val t.isLt) := by dsimp only [dat2]

/-! ## The body's two conditionals, over the grid -/

/-- Whether the point's column tile is the first of its row tile, as the body's first conditional tests it. -/
abbrev cond2_0 (i : grid2.Coords) : Prop := (Scalar.cmpi .ne (Scalar.extui (Scalar.cmpi .eq (BitVec.ofNat 32 (i 1).val) 0#32)) 0#32) = 1#1
/-- It is so at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- Whether it is the last, as the second conditional tests it. -/
abbrev cond2_1 (i : grid2.Coords) : Prop := k2_cond2 i = 1#1
/-- It is so at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-- Where the column tile is not the last the output window is idle — the body stores nothing into it — -/
theorem idleAt2_4 : ∀ t : Fin cfg2.N, ¬cond2_1 (grid2.coords t) → cfg2.idle 4 (grid2.coords t) = true := by decide +kernel
/-- and its block is not written back; -/
theorem noFlush2_4 : ∀ t : Fin cfg2.N, ¬cond2_1 (grid2.coords t) → (cfg2.win 4).flush t = false := by decide +kernel
/-- where it is the last, the window is live. -/
theorem liveAt2_4 : ∀ t : Fin cfg2.N, cond2_1 (grid2.coords t) → cfg2.idle 4 (grid2.coords t) = false := by decide +kernel

/-! ## The body on whole buffers, case by case -/

/-- The zero offsets of a whole-block rectangle, as the constant function, per block shape. -/
theorem zoff2_1024x1 : (![0, 0] : Fin S1024x1.rank → Nat) = fun _ => 0 := by
  funext a; match a with | ⟨0, _⟩ => rfl | ⟨1, _⟩ => rfl
theorem zoff2_1024x1024 : (![0, 0] : Fin S1024x1024.rank → Nat) = fun _ => 0 := by
  funext a; match a with | ⟨0, _⟩ => rfl | ⟨1, _⟩ => rfl
theorem zoff2_512x1024 : (![0, 0] : Fin S512x1024.rank → Nat) = fun _ => 0 := by
  funext a; match a with | ⟨0, _⟩ => rfl | ⟨1, _⟩ => rfl
theorem zoff2_1024x512 : (![0, 0] : Fin S1024x512.rank → Nat) = fun _ => 0 := by
  funext a; match a with | ⟨0, _⟩ => rfl | ⟨1, _⟩ => rfl

set_option maxHeartbeats 4000000 in
/-- The body at a first column tile (`ci = 0`), on whole buffers: the inputs at `x0 … x3`, the output's at `xi`, the two
    scratch columns at anything. It zeroes both columns and then accumulates into them, so they end at the step from zeros;
    the inputs and the output's buffer are as they were. -/
theorem run2_A (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k2_pay7 i x0 x1 x3 x2 k2_pay3)
            ∗ owns (c : Thread nD τ) arg8 fullShare (k2_pay1 (k2_pay5 x0 x1) (k2_pay6 i x3) k2_pay4)) -∗ K ⟨⟩))
      ⊢ wp frame (wpE (defs₀ (F := F)) Variants.none c none) E (cc2__contrastive_kernel i arg2 harg2 arg3 harg3 arg4 harg4 arg5 harg5 arg6 harg6 arg7 harg7 arg8 harg8) K := by
  simp only [cc2__contrastive_kernel_eq_skeleton]; unfold cc2__contrastive_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    sl_unfold_words
    rw [View.read_writes_eq_canon _ _ _ (fun y => ⟨_, List.mem_cons_self, View.mem_set_unit_zero zoff2_1024x1 inb_S1024x1_S1024x1_0_0 y⟩),
      View.canon_cons_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  · iexists _; isplitr
    swap; · iexact H8
    ipureintro
    sl_unfold_words
    rw [View.read_writes_eq_canon _ _ _ (fun y => ⟨_, List.mem_cons_self, View.mem_set_unit_zero zoff2_1024x1 inb_S1024x1_S1024x1_0_0 y⟩),
      View.canon_cons_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]

set_option maxHeartbeats 4000000 in
/-- The body at a middle column tile (`0 < ci < 7`): the scratch columns, found at `s7` and `s8`, end at the step from
    them; the inputs and the output's buffer are as they were. -/
theorem run2_B (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (s7 s8 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k2_pay7 i x0 x1 x3 x2 s7)
            ∗ owns (c : Thread nD τ) arg8 fullShare (k2_pay1 (k2_pay5 x0 x1) (k2_pay6 i x3) s8)) -∗ K ⟨⟩))
      ⊢ wp frame (wpE (defs₀ (F := F)) Variants.none c none) E (cc2__contrastive_kernel i arg2 harg2 arg3 harg3 arg4 harg4 arg5 harg5 arg6 harg6 arg7 harg7 arg8 harg8) K := by
  simp only [cc2__contrastive_kernel_eq_skeleton]; unfold cc2__contrastive_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  · iexists _; isplitr
    swap; · iexact H8
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]

set_option maxHeartbeats 4000000 in
/-- The body at a last column tile (`ci = 7`): the scratch columns end at the step from `s7`, `s8`, and the output's
    buffer, found at anything, at the loss column of the NEW scratch columns (the body reads them back after storing). -/
theorem run2_C (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : cond2_1 i)
    (x0 : Vec F S1024x1024 .bf16) (x1 : Vec F S512x1024 .bf16) (x2 : Vec F S1024x512 .f32) (x3 : Vec F S1024x1 .i32)
    (s7 s8 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 (k2_pay7 i x0 x1 x3 x2 s7) (k2_pay1 (k2_pay5 x0 x1) (k2_pay6 i x3) s8) (k2_pay1 (k2_pay5 x0 x1) (k2_pay6 i x3) s8))
            ∗ owns (c : Thread nD τ) arg7 fullShare (k2_pay7 i x0 x1 x3 x2 s7)
            ∗ owns (c : Thread nD τ) arg8 fullShare (k2_pay1 (k2_pay5 x0 x1) (k2_pay6 i x3) s8)) -∗ K ⟨⟩))
      ⊢ wp frame (wpE (defs₀ (F := F)) Variants.none c none) E (cc2__contrastive_kernel i arg2 harg2 arg3 harg3 arg4 harg4 arg5 harg5 arg6 harg6 arg7 harg7 arg8 harg8) K := by
  simp only [cc2__contrastive_kernel_eq_skeleton]; unfold cc2__contrastive_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, Hk⟩
  subst hf0 hf1 hf2 hf3 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  isplitl [H7]
  · iexists _; isplitr
    swap; · iexact H7
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  · iexists _; isplitr
    swap; · iexact H8
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]

/-! ## What the body finds in the inputs' buffers

Every input's buffer holds its block at every point, fetched there or not: where a window is not fetched (the audio rows
and the positive indices, at the later column tiles of a row tile) its block index has not moved. -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- and the body leaves each there. -/
theorem leaves2_0 (c : Dev nD) (t : Fin cfg2.N) : (dat2 V c).leavesExact 0 t = owns (c : Thread nD τ) (st2_0 t) fullShare (iblk2 V c 0 t) := by
  rw [← after2_0]
theorem leaves2_1 (c : Dev nD) (t : Fin cfg2.N) : (dat2 V c).leavesExact 1 t = owns (c : Thread nD τ) (st2_1 t) fullShare (iblk2 V c 1 t) := by
  rw [← after2_1]
theorem leaves2_2 (c : Dev nD) (t : Fin cfg2.N) : (dat2 V c).leavesExact 2 t = owns (c : Thread nD τ) (st2_2 t) fullShare (iblk2 V c 2 t) := by
  rw [← after2_2]
theorem leaves2_3 (c : Dev nD) (t : Fin cfg2.N) : (dat2 V c).leavesExact 3 t = owns (c : Thread nD τ) (st2_3 t) fullShare (iblk2 V c 3 t) := by
  rw [← after2_3]

/-! ## The invariant, position by position -/

theorem PhiS2_zero (c : Dev nD) (n : ℕ) (h : n ≤ cfg2.N) (hz : n = 0) : PhiS2 V c n h = Pipeline.ΦA spec2 c := by
  subst hz; rfl

/-- After point `n`: the scratch columns at what that point left. -/
theorem PhiS2_succ (c : Dev nD) (n : ℕ) (hn : n < cfg2.N) :
    PhiS2 V c (n + 1) hn = iprop(owns (c : Thread nD τ) scM2_0 fullShare ((sAt2 V c n hn).1) ∗ owns (c : Thread nD τ) scM2_1 fullShare ((sAt2 V c n hn).2)
      ∗ others2 (F := F) c ∗ (∃ r, prngReg c r)) := rfl

/-- Before a point that is not the first: the scratch columns at what the point before left. -/
theorem PhiS2_pos (c : Dev nD) (n : ℕ) (h : n ≤ cfg2.N) (hz : n ≠ 0) :
    PhiS2 V c n h = iprop(owns (c : Thread nD τ) scM2_0 fullShare ((sAt2 V c (n - 1) (by omega)).1) ∗ owns (c : Thread nD τ) scM2_1 fullShare ((sAt2 V c (n - 1) (by omega)).2)
      ∗ others2 (F := F) c ∗ (∃ r, prngReg c r)) := by
  cases n with
  | zero => exact absurd rfl hz
  | succ n => rfl

/-- At any position the invariant gives the scoped state with the scratch columns' contents forgotten. -/
theorem PhiS2_forget (c : Dev nD) (n : ℕ) (h : n ≤ cfg2.N) :
    PhiS2 V c n h ⊢ iprop((∃ d, owns (c : Thread nD τ) scM2_0 fullShare d) ∗ (∃ d, owns (c : Thread nD τ) scM2_1 fullShare d)
      ∗ others2 (F := F) c ∗ (∃ r, prngReg c r)) := by
  cases n with
  | zero => rw [PhiS2_zero V c 0 h rfl, PhiA2_eq]
  | succ n =>
    rw [PhiS2_succ]
    iintro ⟨S0, S1, Ho, Hg⟩
    isplitl [S0]; · iexists _; iexact S0
    isplitl [S1]; · iexists _; iexact S1
    isplitl [Ho]; · iexact Ho
    iexact Hg

theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation, at a generic point -/

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

/-! ## The same, over the step and the loss column -/

/-- At a first column tile the scratch columns end at the step from zeros. -/
theorem point2_A (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step2 i x0 x1 x2 x3 init2).1
            ∗ owns (c : Thread nD τ) arg8 fullShare (step2 i x0 x1 x2 x3 init2).2) -∗ K ⟨⟩))
      ⊢ wp frame (wpE (defs₀ (F := F)) Variants.none c none) E (cc2__contrastive_kernel i arg2 harg2 arg3 harg3 arg4 harg4 arg5 harg5 arg6 harg6 arg7 harg7 arg8 harg8) K :=
  run2_A c E i arg2 harg2 arg3 harg3 arg4 harg4 arg5 harg5 arg6 harg6 arg7 harg7 arg8 harg8 hc0 hc1 x0 x1 x2 x3 xi K

/-- At a middle column tile they end at the step from the columns `s` found. -/
theorem point2_B (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (s : Vec F S1024x1 .f32 × Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ owns (c : Thread nD τ) arg7 fullShare s.1 ∗ owns (c : Thread nD τ) arg8 fullShare s.2
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step2 i x0 x1 x2 x3 s).1
            ∗ owns (c : Thread nD τ) arg8 fullShare (step2 i x0 x1 x2 x3 s).2) -∗ K ⟨⟩))
      ⊢ wp frame (wpE (defs₀ (F := F)) Variants.none c none) E (cc2__contrastive_kernel i arg2 harg2 arg3 harg3 arg4 harg4 arg5 harg5 arg6 harg6 arg7 harg7 arg8 harg8) K :=
  run2_B c E i arg2 harg2 arg3 harg3 arg4 harg4 arg5 harg5 arg6 harg6 arg7 harg7 arg8 harg8 hc0 hc1 x0 x1 x2 x3 xi s.1 s.2 K

/-- At a last column tile likewise, and the output's buffer ends at the loss column of the columns the step leaves. -/
theorem point2_C (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : cond2_1 i)
    (x0 : Vec F S1024x1024 .bf16) (x1 : Vec F S512x1024 .bf16) (x2 : Vec F S1024x512 .f32) (x3 : Vec F S1024x1 .i32)
    (s : Vec F S1024x1 .f32 × Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s.1 ∗ owns (c : Thread nD τ) arg8 fullShare s.2
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (fin2 (step2 i x0 x1 x2 x3 s))
            ∗ owns (c : Thread nD τ) arg7 fullShare (step2 i x0 x1 x2 x3 s).1
            ∗ owns (c : Thread nD τ) arg8 fullShare (step2 i x0 x1 x2 x3 s).2) -∗ K ⟨⟩))
      ⊢ wp frame (wpE (defs₀ (F := F)) Variants.none c none) E (cc2__contrastive_kernel i arg2 harg2 arg3 harg3 arg4 harg4 arg5 harg5 arg6 harg6 arg7 harg7 arg8 harg8) K :=
  run2_C c E i arg2 harg2 arg3 harg3 arg4 harg4 arg5 harg5 arg6 harg6 arg7 harg7 arg8 harg8 hc0 hc1 x0 x1 x2 x3 s.1 s.2 K

set_option maxHeartbeats 4000000 in
/-- The body at any point. The inputs' buffers hold their blocks. At a first column tile the invariant's scratch columns are
    taken at anything and come back at the step from zeros; at a later one they are taken at what the point before left and
    come back at the step from that. Where the column tile is not the last the output's buffer is handed back as found; at
    the last it comes back at the loss column of the point's scratch columns. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, PhiS2_castSucc]
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1), sAt2_first V c t h0]
    iintro ⟨HΦ, Ho, ⟨%d0, H0⟩, ⟨%d1, H1⟩, ⟨%d2, H2⟩, ⟨%d3, H3⟩, ⟨%d4, H4⟩⟩
    icases (PhiS2_forget V c t.val (Nat.le_of_lt t.isLt)) $$ HΦ with ⟨S0, S1, Hr, Hg⟩
    iapply (point2_A c Set.univ (grid2.coords t) _ _ _ _ _ _ _ _ _ _ _ _ _ _ hc0 hc1 (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [S0]; · iexact S0
    isplitl [S1]; · iexact S1
    iintro ⟨H0, H1, H2, H3, H4, S0, S1⟩
    isplitl [S0 S1 Hr Hg]
    · isplitl [S0]; · iexact S0
      isplitl [S1]; · iexact S1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hc0 : ¬cond2_0 (grid2.coords t) := fun h => h0 ((hcond2_0 t).mp h)
    have hz : t.val ≠ 0 := fun h => h0 (by rw [h])
    rw [PhiS2_pos V c _ _ hz, sAt2_later V c t h0]
    by_cases h1 : t.val % 8 = 7
    · have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4, sAt2_later V c t h0]
      iintro ⟨⟨S0, S1, Hr, Hg⟩, Ho, ⟨%d0, H0⟩, ⟨%d1, H1⟩, ⟨%d2, H2⟩, ⟨%d3, H3⟩, ⟨%d4, H4⟩⟩
      iapply (point2_C c Set.univ (grid2.coords t) _ _ _ _ _ _ _ _ _ _ _ _ _ _ hc0 hc1 (iblk2 V c 0 t) (iblk2 V c 1 t) (iblk2 V c 2 t) (iblk2 V c 3 t) (sAt2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨S0, S1, Hr, Hg⟩, Ho, ⟨%d0, H0⟩, ⟨%d1, H1⟩, ⟨%d2, H2⟩, ⟨%d3, H3⟩, ⟨%d4, H4⟩⟩
      iapply (point2_B c Set.univ (grid2.coords t) _ _ _ _ _ _ _ _ _ _ _ _ _ _ hc0 hc1 (iblk2 V c 0 t) (iblk2 V c 1 t) (iblk2 V c 2 t) (iblk2 V c 3 t) ((dat2 V c).before 4 t d4) (sAt2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the scoped state back, the scratch columns' contents forgotten. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl, PhiA2_eq]
  exact PhiS2_forget V c _ _

end Cert.Kernel.Hand

end
-- ==== Proof.KRun.lean ====
/-
  The launch of the kernel program: its @main is three kernel calls among host operations — the two
  normalisation calls, a reshape of the positive indices, the contrastive call, and the mean of the loss column —
  and this module runs them in that order from any launch memory.

  Between two items a core holds every unscoped buffer whole at contents that are a fold through @main from the
  launch memory: a host stretch applies its operations; a kernel call leaves each of its windows' arrays at what the
  pipeline's write-backs make of it and every other buffer as it found it. Each call's proof data are taken at the
  contents it is entered with, so the last boundary's contents name the program's result as a function of the launch
  memory: the mean of the contrastive call's output column, that call entered with the two normalised matrices,
  the weights and the reshaped indices.
-/
import proofs.«421096_j23459111371346_1_alg».proof.Proof.Gen.Kernel.Launch
import proofs.«421096_j23459111371346_1_alg».proof.Proof.Gen.Kernel.Regions
import proofs.«421096_j23459111371346_1_alg».proof.Proof.KRegion0
import proofs.«421096_j23459111371346_1_alg».proof.Proof.KRegion1
import proofs.«421096_j23459111371346_1_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch memory
variable (m : (ℓ : Loc nD τ sig) → Buf (Elt F) ℓ)

/-! ## The buffer contents at each boundary: a fold through @main -/

/-- Core `c`'s buffers at launch: what the first normalisation call is entered with. -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b

/-- After the first normalisation call: its two arrays at what the pipeline leaves (the audio matrix as entered, the
    unit audio rows written back block by block), every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second normalisation call is entered with. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second normalisation call: the text matrix as entered, the unit text rows written back. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After the reshape of the positive indices into a column. -/
abbrev W3 : Dev nD → Valuation τ sig (Elt F) := fun c => StableHlo.after hostOps2 (W2 m c)
/-- What the contrastive call is entered with. -/
abbrev E3 : (c : Dev nD) → (b : Ref sig .tc) → Buf (Elt F) ((c : Thread nD τ).loc b) := fun c b => W3 m c b

/-- After the contrastive call: its four inputs as entered, the loss column written back at the last column tiles. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-- After the mean of the loss column: the last boundary. -/
abbrev W5 : Dev nD → Valuation τ sig (Elt F) := fun c => StableHlo.after hostOps3 (W4 m c)

/-! ## Each call's entry contents, read back through the fold

No host operation and no call writes an argument; the unit rows reach the contrastive call as the normalisation
calls left them; the index column is the reshape of the index argument. -/

theorem E0_main_arg0 (c : Dev nD) : E0 m c main_arg0 = m ((c : Thread nD τ).loc main_arg0) := rfl

theorem E1_main_arg1 (c : Dev nD) : E1 m c main_arg1 = m ((c : Thread nD τ).loc main_arg1) :=
  W1_of_ne m c main_arg1 (by decide)

theorem W3_of (c : Dev nD) (r : Ref sig .tc) (h : r ∉ hostOps2_W) : W3 m c (Proc.devRef .tc r) = W2 m c (Proc.devRef .tc r) :=
  StableHlo.after_of_writes_sub hostOps2 _ hostOps2_writes h
theorem W5_of (c : Dev nD) (r : Ref sig .tc) (h : r ∉ hostOps3_W) : W5 m c (Proc.devRef .tc r) = W4 m c (Proc.devRef .tc r) :=
  StableHlo.after_of_writes_sub hostOps3 _ hostOps3_writes h

theorem E3_main_arg2 (c : Dev nD) : E3 m c main_arg2 = m ((c : Thread nD τ).loc main_arg2) :=
  (W3_of m c main_arg2 (by decide)).trans <| (W2_of_ne m c main_arg2 (by decide)).trans <| W1_of_ne m c main_arg2 (by decide)

theorem E3_main_v0 (c : Dev nD) : E3 m c main_v0 = (dat0 (E0 m) c).arrAt 1 cfg0.N :=
  (W3_of m c main_v0 (by decide)).trans <| (W2_of_ne m c main_v0 (by decide)).trans <| W1_arr m c 1

theorem E3_main_v1 (c : Dev nD) : E3 m c main_v1 = (dat1 (E1 m) c).arrAt 1 cfg1.N :=
  (W3_of m c main_v1 (by decide)).trans <| W2_arr m c 1

theorem W2_main_arg3 (c : Dev nD) : W2 m c (Proc.devRef .tc main_arg3) = m ((c : Thread nD τ).loc main_arg3) :=
  (W2_of_ne m c main_arg3 (by decide)).trans <| W1_of_ne m c main_arg3 (by decide)

theorem E3_main_v2 (c : Dev nD) :
    E3 m c main_v2 = shapeCast S8192x1 (m ((c : Thread nD τ).loc main_arg3)) shapeCasts_S8192_S8192x1 := by
  show StableHlo.after hostOps2 (W2 m c) (Proc.devRef .tc main_v2) = _
  after_results
  rw [W2_main_arg3]
  rfl

/-! ## The proof data family and the thread state -/

/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item: the core's generator register at some state and its
    dues, at nothing. -/
abbrev R (c : Dev nD) : sProp 𝕄 := iprop((∃ r, prngReg c r) ∗ ∃ W, owes (c : Thread nD τ) (0 : CellTallies nD τ sig Unit) W)
/-- A host stretch as a segment: its operations over the unscoped buffers held whole at the contents `W`, the rest
    riding along; it leaves them at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- The first normalisation call over the thread state: entered from every unscoped buffer at `W0`, left at `W1`.
    Its two arrays are split out of the unscoped buffers and put back at what the pipeline leaves; the generator
    register goes into the call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second normalisation call over the thread state: entered from every unscoped buffer at `W1`, left at `W2`.
    Its two arrays are split out of the unscoped buffers and put back at what the pipeline leaves; the generator
    register goes into the call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The contrastive call over the thread state: entered from every unscoped buffer at `W3`, left at `W4`. Its five
    arrays are split out of the unscoped buffers and put back at what the pipeline leaves. The call's invariant is not
    constant: before the first point it is the scoped state as the launch hands it (with the generator register), and
    after the last it gives that state back, the scratch columns' contents forgotten. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec2 c : sProp 𝕄) ⊢ (pdats m 2 c).Φ 0 from hin2 (E3 m) c)
    unfold Pipeline.ΦA
    iintro ⟨Hp, -, Hr⟩
    isplitl [Hr]; · iexact Hr
    iexact Hp
  hout c := by
    refine BIBase.Entails.trans (show (pdats m 2 c).Φ (Fin.last _) ⊢ (Pipeline.ΦA spec2 c : sProp 𝕄) from hout2 (E3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order: the two normalisation calls, the reshape from the contents they leave, the
    contrastive call, the mean from the contents it leaves. -/
abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .host (hseg hostOps3 hostOps3_sub hostOps3_fresh (W4 m)) ]
/-- @main is the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and every final memory holds each unscoped buffer at the last boundary's contents: the
    several-regions launch over the segments, whose thread states chain by construction, the last one read against
    the final state. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## What the last boundary holds

No host operation and no call writes an argument (a call reads it through an input window, which the pipeline leaves as
entered, or bypasses it), so the fold at an argument's buffer walks back to the launch memory; the result buffer holds
the mean's operations applied to the loss column the contrastive call leaves. -/

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_arr m c 0).trans <| ((dat0 (E0 m) c).arrAt_in 0 rfl _).trans (A_eq0 (E0 m) c 0)

theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_arr m c 0).trans <| ((dat1 (E1 m) c).arrAt_in 0 rfl _).trans <| (A_eq1 (E1 m) c 0).trans (E1_main_arg1 m c)

theorem W5_main_arg2 (c : Dev nD) : W5 m c (Proc.devRef .tc main_arg2) = m ((c : Thread nD τ).loc main_arg2) :=
  (W5_of m c main_arg2 (by decide)).trans <| (W4_arr m c 2).trans <| ((dat2 (E3 m) c).arrAt_in 2 rfl _).trans <|
    (A_eq2 (E3 m) c 2).trans (E3_main_arg2 m c)

theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans
    (W2_main_arg3 m c)

/-- The result: the sum of the loss column the contrastive call leaves, divided by the number of rows. -/
theorem W5_main_v5 (c : Dev nD) :
    W5 m c (Proc.devRef .tc main_v5)
      = Host.divf (Host.reduceAdd ((dat2 (E3 m) c).arrAt 4 cfg2.N) (constant S_ .f32 0x00000000#32) reducesTo_S8192x1_S_d0_1 h_S_)
          (constant S_ .f32 0x46000000#32) := by
  show StableHlo.after hostOps3 (W4 m c) (Proc.devRef .tc main_v5) = _
  after_results
  rw [show W4 m c (Proc.devRef .tc main_v3) = (dat2 (E3 m) c).arrAt 4 cfg2.N from W4_arr m c 4]

/-- THE FRAME: every weakly fair execution of @main terminates, nothing faulting, and every final memory has the four
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

/-- THE VALUE: besides, every final memory holds in the result buffer the mean of the loss column the contrastive call
    leaves when entered with the unit audio rows, the unit text rows, the weights and the column of positive indices. -/
theorem run_value (ρ : Dev nD → PrngReg) : θ_run defs (onTc (τ := τ) (main (F := F))) ⟨m, fun _ => 0, ρ⟩ (fun r => ∀ c : Dev nD,
      r.2.mem ((c.tc : Thread nD τ).loc main_v5)
        = Host.divf (Host.reduceAdd ((dat2 (E3 m) c).arrAt 4 cfg2.N) (constant S_ .f32 0x00000000#32) reducesTo_S8192x1_S_d0_1 h_S_)
            (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W5_main_v5 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

end Cert.Kernel.Hand

end
-- ==== Proof.KiRegion0.lean ====
/-
  The first normalisation call of the idealized kernel program, as one pipeline: what each grid point's body
  leaves in its staging buffers, as pure functions of the arrays the call is entered with.

  The call tiles the audio matrix into eight blocks of 1024 rows. At a point the body loads the whole input block
  `x`, and stores into the whole output block the rows of `x` divided by their clamped Euclidean norms (the
  payload `k0_pay1 x`). It keeps nothing between points and signals nobody, so the invariant carried through the
  call is the part of the core's state the body may not describe, unchanged.
-/
import proofs.«421096_j23459111371346_1_alg».proof.Proof.Gen.KernelIdeal.Launch
import proofs.«421096_j23459111371346_1_alg».proof.Proof.Gen.KernelIdeal.Skeleton
import proofs.«421096_j23459111371346_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the arrays as the call finds them, per core
variable (V : (c : Dev nD) → (b : Ref sig .tc) → Buf (Elt F) ((c : Thread nD τ).loc b))

/-- Window `w`'s block at point `t`: the rows `1024·t … 1024·t + 1023` of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle every load and store of the body goes through. -/
abbrev rw0 : Rect S1024x1024 := Rect.unit (s := S1024x1024) ![0, 0] S1024x1024.size inb_S1024x1024_S1024x1024_0_0

theorem rw0_zero : (![0, 0] : Fin S1024x1024.rank → Nat) = fun _ => 0 := by
  funext a; match a with | ⟨0, _⟩ => rfl | ⟨1, _⟩ => rfl

set_option maxHeartbeats 1000000 in
/-- The body on whole staging buffers, the input's at contents `x0` and the output's at anything: it ends with the
    input's unchanged and the output's at the normalised rows of `x0`. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero rw0_zero inb_S1024x1024_S1024x1024_0_0 y⟩),
    View.canon_unit_zero rw0_zero]
  simp only [View.readAt_eq_ld, View.ld_unit_zero (S := S1024x1024) rw0_zero]

/-- The input window's current staging buffer holds its block at every point, for any proof data whose array is the
    call's entry contents and whose body leaves the block in place: the window is fetched whole at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The call's proof data on core `c`: the arrays as the call finds them; after the body at point `t` the input's
    buffer still at its block and the output's at the normalised rows of that block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The second normalisation call of the idealized kernel program, as one pipeline: what each grid point's body
  leaves in its staging buffers, as pure functions of the arrays the call is entered with.

  The call tiles the text matrix into four blocks of 1024 rows. At a point the body loads the whole input block
  `x`, and stores into the whole output block the rows of `x` divided by their clamped Euclidean norms (the
  payload `k1_pay1 x`). It keeps nothing between points and signals nobody, so the invariant carried through the
  call is the part of the core's state the body may not describe, unchanged.
-/
import proofs.«421096_j23459111371346_1_alg».proof.Proof.Gen.KernelIdeal.Launch
import proofs.«421096_j23459111371346_1_alg».proof.Proof.Gen.KernelIdeal.Skeleton
import proofs.«421096_j23459111371346_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the arrays as the call finds them, per core
variable (V : (c : Dev nD) → (b : Ref sig .tc) → Buf (Elt F) ((c : Thread nD τ).loc b))

/-- Window `w`'s block at point `t`: the rows `1024·t … 1024·t + 1023` of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangle every load and store of the body goes through. -/
abbrev rw1 : Rect S1024x1024 := Rect.unit (s := S1024x1024) ![0, 0] S1024x1024.size inb_S1024x1024_S1024x1024_0_0

theorem rw1_zero : (![0, 0] : Fin S1024x1024.rank → Nat) = fun _ => 0 := by
  funext a; match a with | ⟨0, _⟩ => rfl | ⟨1, _⟩ => rfl

set_option maxHeartbeats 1000000 in
/-- The body on whole staging buffers, the input's at contents `x0` and the output's at anything: it ends with the
    input's unchanged and the output's at the normalised rows of `x0`. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k1_pay1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero rw1_zero inb_S1024x1024_S1024x1024_0_0 y⟩),
    View.canon_unit_zero rw1_zero]
  simp only [View.readAt_eq_ld, View.ld_unit_zero (S := S1024x1024) rw1_zero]

/-- The input window's current staging buffer holds its block at every point, for any proof data whose array is the
    call's entry contents and whose body leaves the block in place: the window is fetched whole at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The call's proof data on core `c`: the arrays as the call finds them; after the body at point `t` the input's
    buffer still at its block and the output's at the normalised rows of that block; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRegion2.lean ====
/-
  The contrastive call of the idealized kernel program, as one pipeline over its 8 × 8 grid (row tile `bi`, column
  tile `ci`; point `t = 8·bi + ci`): what each point's body leaves in its staging buffers and in the two scratch
  columns it carries from point to point, as pure functions of the arrays the call is entered with.

  At a point the body resets both scratch columns when `ci = 0`; adds to the first the row sums, over the tile's 512
  columns, of exp(logit)·(1 - w)·(1 - mask) and to the second those of logit·mask; and when `ci = 7` stores into the
  output block  -pos + log (sum + exp pos)  of the two columns. The output window is written back only at `ci = 7`.
-/
import proofs.«421096_j23459111371346_1_alg».proof.Proof.Gen.KernelIdeal.Launch
import proofs.«421096_j23459111371346_1_alg».proof.Proof.Gen.KernelIdeal.Skeleton
import proofs.«421096_j23459111371346_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the arrays as the call finds them, per core
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch columns the body carries: the weighted negative sum and the positive logit. -/
abbrev scM2_0 : Memref sig .tc .vmem S1024x1 .f32 := Memref.whole cc2_scratch0
abbrev scM2_1 : Memref sig .tc .vmem S1024x1 .f32 := Memref.whole cc2_scratch1

/-- Both columns as the reset leaves them: zeros. -/
def init2 : Vec F S1024x1 .f32 × Vec F S1024x1 .f32 := (k2_pay3, k2_pay4)

/-- One point's accumulation: from the point's coordinates, its four input blocks (unit audio rows `x0`, unit text
    rows `x1`, weights `x2`, positive indices `x3`) and the columns `s` it starts from, the columns it leaves. -/
def step2 (i : grid2.Coords) (x0 : Vec F S1024x1024 .bf16) (x1 : Vec F S512x1024 .bf16) (x2 : Vec F S1024x512 .f32) (x3 : Vec F S1024x1 .i32)
    (s : Vec F S1024x1 .f32 × Vec F S1024x1 .f32) : Vec F S1024x1 .f32 × Vec F S1024x1 .f32 :=
  (k2_pay7 i x0 x1 x3 x2 s.1, k2_pay1 (k2_pay5 x0 x1) (k2_pay6 i x3) s.2)

/-- The loss column the last column tile stores, from the two columns. -/
def fin2 (s : Vec F S1024x1 .f32 × Vec F S1024x1 .f32) : Vec F S1024x1 .f32 := k2_pay2 s.1 s.2 s.2

/-- THE ACCUMULATION: the scratch columns after the body at position `n` — the step from zeros where the column tile
    is the first of its row tile (`n % 8 = 0`), else from what position `n - 1` left. -/
def sAt2 (c : Dev nD) : (n : ℕ) → n < cfg2.N → Vec F S1024x1 .f32 × Vec F S1024x1 .f32
  | 0, hn => step2 (grid2.coords ⟨0, hn⟩) (iblk2 V c 0 ⟨0, hn⟩) (iblk2 V c 1 ⟨0, hn⟩) (iblk2 V c 2 ⟨0, hn⟩) (iblk2 V c 3 ⟨0, hn⟩) init2
  | n + 1, hn => step2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 8 = 0 then init2 else sAt2 c n (Nat.lt_of_succ_lt hn))

/-- At a first column tile the step starts from zeros. -/
theorem sAt2_first (c : Dev nD) (t : Fin cfg2.N) (h : t.val % 8 = 0) :
    sAt2 V c t.val t.isLt = step2 (grid2.coords t) (iblk2 V c 0 t) (iblk2 V c 1 t) (iblk2 V c 2 t) (iblk2 V c 3 t) init2 := by
  obtain ⟨n, hn⟩ := t
  cases n with
  | zero => rfl
  | succ n => show step2 _ _ _ _ _ (if (n + 1) % 8 = 0 then init2 else _) = _; rw [if_pos h]

/-- At a later column tile it starts from what the point before left. -/
theorem sAt2_later (c : Dev nD) (t : Fin cfg2.N) (h : ¬t.val % 8 = 0) :
    sAt2 V c t.val t.isLt = step2 (grid2.coords t) (iblk2 V c 0 t) (iblk2 V c 1 t) (iblk2 V c 2 t) (iblk2 V c 3 t)
      (sAt2 V c (t.val - 1) (Nat.lt_of_le_of_lt (Nat.sub_le _ _) t.isLt)) := by
  obtain ⟨n, hn⟩ := t
  cases n with
  | zero => exact absurd (Nat.zero_mod _) h
  | succ n => show step2 _ _ _ _ _ (if (n + 1) % 8 = 0 then init2 else _) = _; rw [if_neg h]; rfl

/-- The core's scoped buffers other than the two scratch columns — the staging buffers of the two normalisation
    calls —, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The scoped state the launch hands the call, with the two scratch columns set apart, each at some contents. -/
theorem PhiA2_eq (c : Dev nD) :
    (Pipeline.ΦA spec2 c : sProp 𝕄)
      = iprop((∃ d, owns (c : Thread nD τ) scM2_0 fullShare d) ∗ (∃ d, owns (c : Thread nD τ) scM2_1 fullShare d)
          ∗ others2 (F := F) c ∗ (∃ r, prngReg c r)) := by
  unfold Pipeline.ΦA others2; rw [scopedRest2_eq]; simp only [scM2_0, scM2_1, owns_whole]
  refine BI.equiv_iff.mp ⟨?_, ?_⟩
  · show (_ : sProp 𝕄) ⊢ _
    iintro ⟨⟨A0, A1, A2, A3, A4, A5, A6, A7, S0, S1⟩, Hg⟩
    isplitl [S0]; · iexact S0
    isplitl [S1]; · iexact S1
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    iexact Hg
  · show (_ : sProp 𝕄) ⊢ _
    iintro ⟨S0, S1, ⟨A0, A1, A2, A3, A4, A5, A6, A7⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [S0]; · iexact S0
      iexact S1
    iexact Hg

/-- The invariant the call carries before position `n`: before the first point the scoped state as the launch hands
    it; afterwards the two scratch columns at what the point before left, the rest of that state at anything. -/
def PhiS2 (c : Dev nD) : (n : ℕ) → n ≤ cfg2.N → sProp 𝕄
  | 0, _ => Pipeline.ΦA spec2 c
  | n + 1, hn => iprop(owns (c : Thread nD τ) scM2_0 fullShare ((sAt2 V c n hn).1) ∗ owns (c : Thread nD τ) scM2_1 fullShare ((sAt2 V c n hn).2)
      ∗ others2 (F := F) c ∗ (∃ r, prngReg c r))

/-- The call's proof data on core `c`: the arrays as the call finds them; after the body at point `t` each input's
    buffer still at its block and the output's at the loss column of the scratch columns there (consulted only where
    the window is written back, at the last column tiles); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => fin2 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = fin2 (sAt2 V c t.val t.isLt) := by dsimp only [dat2]

/-! ## The body's two conditionals, over the grid -/

/-- Whether the point's column tile is the first of its row tile, as the body's first conditional tests it. -/
abbrev cond2_0 (i : grid2.Coords) : Prop := (Scalar.cmpi .ne (Scalar.extui (Scalar.cmpi .eq (BitVec.ofNat 32 (i 1).val) 0#32)) 0#32) = 1#1
/-- It is so at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- Whether it is the last, as the second conditional tests it. -/
abbrev cond2_1 (i : grid2.Coords) : Prop := k2_cond2 i = 1#1
/-- It is so at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-- Where the column tile is not the last the output window is idle — the body stores nothing into it — -/
theorem idleAt2_4 : ∀ t : Fin cfg2.N, ¬cond2_1 (grid2.coords t) → cfg2.idle 4 (grid2.coords t) = true := by decide +kernel
/-- and its block is not written back; -/
theorem noFlush2_4 : ∀ t : Fin cfg2.N, ¬cond2_1 (grid2.coords t) → (cfg2.win 4).flush t = false := by decide +kernel
/-- where it is the last, the window is live. -/
theorem liveAt2_4 : ∀ t : Fin cfg2.N, cond2_1 (grid2.coords t) → cfg2.idle 4 (grid2.coords t) = false := by decide +kernel

/-! ## The body on whole buffers, case by case -/

/-- The zero offsets of a whole-block rectangle, as the constant function, per block shape. -/
theorem zoff2_1024x1 : (![0, 0] : Fin S1024x1.rank → Nat) = fun _ => 0 := by
  funext a; match a with | ⟨0, _⟩ => rfl | ⟨1, _⟩ => rfl
theorem zoff2_1024x1024 : (![0, 0] : Fin S1024x1024.rank → Nat) = fun _ => 0 := by
  funext a; match a with | ⟨0, _⟩ => rfl | ⟨1, _⟩ => rfl
theorem zoff2_512x1024 : (![0, 0] : Fin S512x1024.rank → Nat) = fun _ => 0 := by
  funext a; match a with | ⟨0, _⟩ => rfl | ⟨1, _⟩ => rfl
theorem zoff2_1024x512 : (![0, 0] : Fin S1024x512.rank → Nat) = fun _ => 0 := by
  funext a; match a with | ⟨0, _⟩ => rfl | ⟨1, _⟩ => rfl

set_option maxHeartbeats 4000000 in
/-- The body at a first column tile (`ci = 0`), on whole buffers: the inputs at `x0 … x3`, the output's at `xi`, the two
    scratch columns at anything. It zeroes both columns and then accumulates into them, so they end at the step from zeros;
    the inputs and the output's buffer are as they were. -/
theorem run2_A (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k2_pay7 i x0 x1 x3 x2 k2_pay3)
            ∗ owns (c : Thread nD τ) arg8 fullShare (k2_pay1 (k2_pay5 x0 x1) (k2_pay6 i x3) k2_pay4)) -∗ K ⟨⟩))
      ⊢ wp frame (wpE (defs₀ (F := F)) Variants.none c none) E (cc2__contrastive_kernel i arg2 harg2 arg3 harg3 arg4 harg4 arg5 harg5 arg6 harg6 arg7 harg7 arg8 harg8) K := by
  simp only [cc2__contrastive_kernel_eq_skeleton]; unfold cc2__contrastive_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    sl_unfold_words
    rw [View.read_writes_eq_canon _ _ _ (fun y => ⟨_, List.mem_cons_self, View.mem_set_unit_zero zoff2_1024x1 inb_S1024x1_S1024x1_0_0 y⟩),
      View.canon_cons_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  · iexists _; isplitr
    swap; · iexact H8
    ipureintro
    sl_unfold_words
    rw [View.read_writes_eq_canon _ _ _ (fun y => ⟨_, List.mem_cons_self, View.mem_set_unit_zero zoff2_1024x1 inb_S1024x1_S1024x1_0_0 y⟩),
      View.canon_cons_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]

set_option maxHeartbeats 4000000 in
/-- The body at a middle column tile (`0 < ci < 7`): the scratch columns, found at `s7` and `s8`, end at the step from
    them; the inputs and the output's buffer are as they were. -/
theorem run2_B (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (s7 s8 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (k2_pay7 i x0 x1 x3 x2 s7)
            ∗ owns (c : Thread nD τ) arg8 fullShare (k2_pay1 (k2_pay5 x0 x1) (k2_pay6 i x3) s8)) -∗ K ⟨⟩))
      ⊢ wp frame (wpE (defs₀ (F := F)) Variants.none c none) E (cc2__contrastive_kernel i arg2 harg2 arg3 harg3 arg4 harg4 arg5 harg5 arg6 harg6 arg7 harg7 arg8 harg8) K := by
  simp only [cc2__contrastive_kernel_eq_skeleton]; unfold cc2__contrastive_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  · iexists _; isplitr
    swap; · iexact H8
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]

set_option maxHeartbeats 4000000 in
/-- The body at a last column tile (`ci = 7`): the scratch columns end at the step from `s7`, `s8`, and the output's
    buffer, found at anything, at the loss column of the NEW scratch columns (the body reads them back after storing). -/
theorem run2_C (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : cond2_1 i)
    (x0 : Vec F S1024x1024 .bf16) (x1 : Vec F S512x1024 .bf16) (x2 : Vec F S1024x512 .f32) (x3 : Vec F S1024x1 .i32)
    (s7 s8 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 (k2_pay7 i x0 x1 x3 x2 s7) (k2_pay1 (k2_pay5 x0 x1) (k2_pay6 i x3) s8) (k2_pay1 (k2_pay5 x0 x1) (k2_pay6 i x3) s8))
            ∗ owns (c : Thread nD τ) arg7 fullShare (k2_pay7 i x0 x1 x3 x2 s7)
            ∗ owns (c : Thread nD τ) arg8 fullShare (k2_pay1 (k2_pay5 x0 x1) (k2_pay6 i x3) s8)) -∗ K ⟨⟩))
      ⊢ wp frame (wpE (defs₀ (F := F)) Variants.none c none) E (cc2__contrastive_kernel i arg2 harg2 arg3 harg3 arg4 harg4 arg5 harg5 arg6 harg6 arg7 harg7 arg8 harg8) K := by
  simp only [cc2__contrastive_kernel_eq_skeleton]; unfold cc2__contrastive_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, Hk⟩
  subst hf0 hf1 hf2 hf3 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  isplitl [H7]
  · iexists _; isplitr
    swap; · iexact H7
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]
  · iexists _; isplitr
    swap; · iexact H8
    ipureintro
    sl_unfold_words
    rw [View.read_writes_eq_canon _ _ _ (fun y => ⟨_, List.mem_singleton_self _, View.mem_set_unit_zero zoff2_1024x1 inb_S1024x1_S1024x1_0_0 y⟩),
      View.canon_unit_zero zoff2_1024x1]
    simp only [View.readAt_eq_ld, View.readCov_unit_zero (S := S1024x1) _ zoff2_1024x1, View.ld_unit_zero (S := S1024x1024) zoff2_1024x1024, View.ld_unit_zero (S := S512x1024) zoff2_512x1024,
      View.ld_unit_zero (S := S1024x512) zoff2_1024x512, View.ld_unit_zero (S := S1024x1) zoff2_1024x1]

/-! ## What the body finds in the inputs' buffers

Every input's buffer holds its block at every point, fetched there or not: where a window is not fetched (the audio rows
and the positive indices, at the later column tiles of a row tile) its block index has not moved. -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- and the body leaves each there. -/
theorem leaves2_0 (c : Dev nD) (t : Fin cfg2.N) : (dat2 V c).leavesExact 0 t = owns (c : Thread nD τ) (st2_0 t) fullShare (iblk2 V c 0 t) := by
  rw [← after2_0]
theorem leaves2_1 (c : Dev nD) (t : Fin cfg2.N) : (dat2 V c).leavesExact 1 t = owns (c : Thread nD τ) (st2_1 t) fullShare (iblk2 V c 1 t) := by
  rw [← after2_1]
theorem leaves2_2 (c : Dev nD) (t : Fin cfg2.N) : (dat2 V c).leavesExact 2 t = owns (c : Thread nD τ) (st2_2 t) fullShare (iblk2 V c 2 t) := by
  rw [← after2_2]
theorem leaves2_3 (c : Dev nD) (t : Fin cfg2.N) : (dat2 V c).leavesExact 3 t = owns (c : Thread nD τ) (st2_3 t) fullShare (iblk2 V c 3 t) := by
  rw [← after2_3]

/-! ## The invariant, position by position -/

theorem PhiS2_zero (c : Dev nD) (n : ℕ) (h : n ≤ cfg2.N) (hz : n = 0) : PhiS2 V c n h = Pipeline.ΦA spec2 c := by
  subst hz; rfl

/-- After point `n`: the scratch columns at what that point left. -/
theorem PhiS2_succ (c : Dev nD) (n : ℕ) (hn : n < cfg2.N) :
    PhiS2 V c (n + 1) hn = iprop(owns (c : Thread nD τ) scM2_0 fullShare ((sAt2 V c n hn).1) ∗ owns (c : Thread nD τ) scM2_1 fullShare ((sAt2 V c n hn).2)
      ∗ others2 (F := F) c ∗ (∃ r, prngReg c r)) := rfl

/-- Before a point that is not the first: the scratch columns at what the point before left. -/
theorem PhiS2_pos (c : Dev nD) (n : ℕ) (h : n ≤ cfg2.N) (hz : n ≠ 0) :
    PhiS2 V c n h = iprop(owns (c : Thread nD τ) scM2_0 fullShare ((sAt2 V c (n - 1) (by omega)).1) ∗ owns (c : Thread nD τ) scM2_1 fullShare ((sAt2 V c (n - 1) (by omega)).2)
      ∗ others2 (F := F) c ∗ (∃ r, prngReg c r)) := by
  cases n with
  | zero => exact absurd rfl hz
  | succ n => rfl

/-- At any position the invariant gives the scoped state with the scratch columns' contents forgotten. -/
theorem PhiS2_forget (c : Dev nD) (n : ℕ) (h : n ≤ cfg2.N) :
    PhiS2 V c n h ⊢ iprop((∃ d, owns (c : Thread nD τ) scM2_0 fullShare d) ∗ (∃ d, owns (c : Thread nD τ) scM2_1 fullShare d)
      ∗ others2 (F := F) c ∗ (∃ r, prngReg c r)) := by
  cases n with
  | zero => rw [PhiS2_zero V c 0 h rfl, PhiA2_eq]
  | succ n =>
    rw [PhiS2_succ]
    iintro ⟨S0, S1, Ho, Hg⟩
    isplitl [S0]; · iexists _; iexact S0
    isplitl [S1]; · iexists _; iexact S1
    isplitl [Ho]; · iexact Ho
    iexact Hg

theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation, at a generic point -/

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

/-! ## The same, over the step and the loss column -/

/-- At a first column tile the scratch columns end at the step from zeros. -/
theorem point2_A (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step2 i x0 x1 x2 x3 init2).1
            ∗ owns (c : Thread nD τ) arg8 fullShare (step2 i x0 x1 x2 x3 init2).2) -∗ K ⟨⟩))
      ⊢ wp frame (wpE (defs₀ (F := F)) Variants.none c none) E (cc2__contrastive_kernel i arg2 harg2 arg3 harg3 arg4 harg4 arg5 harg5 arg6 harg6 arg7 harg7 arg8 harg8) K :=
  run2_A c E i arg2 harg2 arg3 harg3 arg4 harg4 arg5 harg5 arg6 harg6 arg7 harg7 arg8 harg8 hc0 hc1 x0 x1 x2 x3 xi K

/-- At a middle column tile they end at the step from the columns `s` found. -/
theorem point2_B (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : ¬cond2_1 i)
    (x0 : Vec F S1024x1024 .bf16) (x1 : Vec F S512x1024 .bf16) (x2 : Vec F S1024x512 .f32) (x3 : Vec F S1024x1 .i32)
    (xi : Vec F S1024x1 .f32) (s : Vec F S1024x1 .f32 × Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ owns (c : Thread nD τ) arg7 fullShare s.1 ∗ owns (c : Thread nD τ) arg8 fullShare s.2
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step2 i x0 x1 x2 x3 s).1
            ∗ owns (c : Thread nD τ) arg8 fullShare (step2 i x0 x1 x2 x3 s).2) -∗ K ⟨⟩))
      ⊢ wp frame (wpE (defs₀ (F := F)) Variants.none c none) E (cc2__contrastive_kernel i arg2 harg2 arg3 harg3 arg4 harg4 arg5 harg5 arg6 harg6 arg7 harg7 arg8 harg8) K :=
  run2_B c E i arg2 harg2 arg3 harg3 arg4 harg4 arg5 harg5 arg6 harg6 arg7 harg7 arg8 harg8 hc0 hc1 x0 x1 x2 x3 xi s.1 s.2 K

/-- At a last column tile likewise, and the output's buffer ends at the loss column of the columns the step leaves. -/
theorem point2_C (c : Dev nD) (E : Set ℕ) (i : grid2.Coords) (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i) (hc1 : cond2_1 i)
    (x0 : Vec F S1024x1024 .bf16) (x1 : Vec F S512x1024 .bf16) (x2 : Vec F S1024x512 .f32) (x3 : Vec F S1024x1 .i32)
    (s : Vec F S1024x1 .f32 × Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s.1 ∗ owns (c : Thread nD τ) arg8 fullShare s.2
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (fin2 (step2 i x0 x1 x2 x3 s))
            ∗ owns (c : Thread nD τ) arg7 fullShare (step2 i x0 x1 x2 x3 s).1
            ∗ owns (c : Thread nD τ) arg8 fullShare (step2 i x0 x1 x2 x3 s).2) -∗ K ⟨⟩))
      ⊢ wp frame (wpE (defs₀ (F := F)) Variants.none c none) E (cc2__contrastive_kernel i arg2 harg2 arg3 harg3 arg4 harg4 arg5 harg5 arg6 harg6 arg7 harg7 arg8 harg8) K :=
  run2_C c E i arg2 harg2 arg3 harg3 arg4 harg4 arg5 harg5 arg6 harg6 arg7 harg7 arg8 harg8 hc0 hc1 x0 x1 x2 x3 s.1 s.2 K

set_option maxHeartbeats 4000000 in
/-- The body at any point. The inputs' buffers hold their blocks. At a first column tile the invariant's scratch columns are
    taken at anything and come back at the step from zeros; at a later one they are taken at what the point before left and
    come back at the step from that. Where the column tile is not the last the output's buffer is handed back as found; at
    the last it comes back at the loss column of the point's scratch columns. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, PhiS2_castSucc]
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1), sAt2_first V c t h0]
    iintro ⟨HΦ, Ho, ⟨%d0, H0⟩, ⟨%d1, H1⟩, ⟨%d2, H2⟩, ⟨%d3, H3⟩, ⟨%d4, H4⟩⟩
    icases (PhiS2_forget V c t.val (Nat.le_of_lt t.isLt)) $$ HΦ with ⟨S0, S1, Hr, Hg⟩
    iapply (point2_A c Set.univ (grid2.coords t) _ _ _ _ _ _ _ _ _ _ _ _ _ _ hc0 hc1 (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [S0]; · iexact S0
    isplitl [S1]; · iexact S1
    iintro ⟨H0, H1, H2, H3, H4, S0, S1⟩
    isplitl [S0 S1 Hr Hg]
    · isplitl [S0]; · iexact S0
      isplitl [S1]; · iexact S1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hc0 : ¬cond2_0 (grid2.coords t) := fun h => h0 ((hcond2_0 t).mp h)
    have hz : t.val ≠ 0 := fun h => h0 (by rw [h])
    rw [PhiS2_pos V c _ _ hz, sAt2_later V c t h0]
    by_cases h1 : t.val % 8 = 7
    · have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4, sAt2_later V c t h0]
      iintro ⟨⟨S0, S1, Hr, Hg⟩, Ho, ⟨%d0, H0⟩, ⟨%d1, H1⟩, ⟨%d2, H2⟩, ⟨%d3, H3⟩, ⟨%d4, H4⟩⟩
      iapply (point2_C c Set.univ (grid2.coords t) _ _ _ _ _ _ _ _ _ _ _ _ _ _ hc0 hc1 (iblk2 V c 0 t) (iblk2 V c 1 t) (iblk2 V c 2 t) (iblk2 V c 3 t) (sAt2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨S0, S1, Hr, Hg⟩, Ho, ⟨%d0, H0⟩, ⟨%d1, H1⟩, ⟨%d2, H2⟩, ⟨%d3, H3⟩, ⟨%d4, H4⟩⟩
      iapply (point2_B c Set.univ (grid2.coords t) _ _ _ _ _ _ _ _ _ _ _ _ _ _ hc0 hc1 (iblk2 V c 0 t) (iblk2 V c 1 t) (iblk2 V c 2 t) (iblk2 V c 3 t) ((dat2 V c).before 4 t d4) (sAt2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the scoped state back, the scratch columns' contents forgotten. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl, PhiA2_eq]
  exact PhiS2_forget V c _ _

end Cert.KernelIdeal.Hand

end
-- ==== Proof.KiRun.lean ====
/-
  The launch of the idealized kernel program: its @main is three kernel calls among host operations — the two
  normalisation calls, a reshape of the positive indices, the contrastive call, and the mean of the loss column —
  and this module runs them in that order from any launch memory.

  Between two items a core holds every unscoped buffer whole at contents that are a fold through @main from the
  launch memory: a host stretch applies its operations; a kernel call leaves each of its windows' arrays at what the
  pipeline's write-backs make of it and every other buffer as it found it. Each call's proof data are taken at the
  contents it is entered with, so the last boundary's contents name the program's result as a function of the launch
  memory: the mean of the contrastive call's output column, that call entered with the two normalised matrices,
  the weights and the reshaped indices.
-/
import proofs.«421096_j23459111371346_1_alg».proof.Proof.Gen.KernelIdeal.Launch
import proofs.«421096_j23459111371346_1_alg».proof.Proof.Gen.KernelIdeal.Regions
import proofs.«421096_j23459111371346_1_alg».proof.Proof.KiRegion0
import proofs.«421096_j23459111371346_1_alg».proof.Proof.KiRegion1
import proofs.«421096_j23459111371346_1_alg».proof.Proof.KiRegion2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the launch memory
variable (m : (ℓ : Loc nD τ sig) → Buf (Elt F) ℓ)

/-! ## The buffer contents at each boundary: a fold through @main -/

/-- Core `c`'s buffers at launch: what the first normalisation call is entered with. -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b

/-- After the first normalisation call: its two arrays at what the pipeline leaves (the audio matrix as entered, the
    unit audio rows written back block by block), every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second normalisation call is entered with. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second normalisation call: the text matrix as entered, the unit text rows written back. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After the reshape of the positive indices into a column. -/
abbrev W3 : Dev nD → Valuation τ sig (Elt F) := fun c => StableHlo.after hostOps2 (W2 m c)
/-- What the contrastive call is entered with. -/
abbrev E3 : (c : Dev nD) → (b : Ref sig .tc) → Buf (Elt F) ((c : Thread nD τ).loc b) := fun c b => W3 m c b

/-- After the contrastive call: its four inputs as entered, the loss column written back at the last column tiles. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-- After the mean of the loss column: the last boundary. -/
abbrev W5 : Dev nD → Valuation τ sig (Elt F) := fun c => StableHlo.after hostOps3 (W4 m c)

/-! ## Each call's entry contents, read back through the fold

No host operation and no call writes an argument; the unit rows reach the contrastive call as the normalisation
calls left them; the index column is the reshape of the index argument. -/

theorem E0_main_arg0 (c : Dev nD) : E0 m c main_arg0 = m ((c : Thread nD τ).loc main_arg0) := rfl

theorem E1_main_arg1 (c : Dev nD) : E1 m c main_arg1 = m ((c : Thread nD τ).loc main_arg1) :=
  W1_of_ne m c main_arg1 (by decide)

theorem W3_of (c : Dev nD) (r : Ref sig .tc) (h : r ∉ hostOps2_W) : W3 m c (Proc.devRef .tc r) = W2 m c (Proc.devRef .tc r) :=
  StableHlo.after_of_writes_sub hostOps2 _ hostOps2_writes h
theorem W5_of (c : Dev nD) (r : Ref sig .tc) (h : r ∉ hostOps3_W) : W5 m c (Proc.devRef .tc r) = W4 m c (Proc.devRef .tc r) :=
  StableHlo.after_of_writes_sub hostOps3 _ hostOps3_writes h

theorem E3_main_arg2 (c : Dev nD) : E3 m c main_arg2 = m ((c : Thread nD τ).loc main_arg2) :=
  (W3_of m c main_arg2 (by decide)).trans <| (W2_of_ne m c main_arg2 (by decide)).trans <| W1_of_ne m c main_arg2 (by decide)

theorem E3_main_v0 (c : Dev nD) : E3 m c main_v0 = (dat0 (E0 m) c).arrAt 1 cfg0.N :=
  (W3_of m c main_v0 (by decide)).trans <| (W2_of_ne m c main_v0 (by decide)).trans <| W1_arr m c 1

theorem E3_main_v1 (c : Dev nD) : E3 m c main_v1 = (dat1 (E1 m) c).arrAt 1 cfg1.N :=
  (W3_of m c main_v1 (by decide)).trans <| W2_arr m c 1

theorem W2_main_arg3 (c : Dev nD) : W2 m c (Proc.devRef .tc main_arg3) = m ((c : Thread nD τ).loc main_arg3) :=
  (W2_of_ne m c main_arg3 (by decide)).trans <| W1_of_ne m c main_arg3 (by decide)

theorem E3_main_v2 (c : Dev nD) :
    E3 m c main_v2 = shapeCast S8192x1 (m ((c : Thread nD τ).loc main_arg3)) shapeCasts_S8192_S8192x1 := by
  show StableHlo.after hostOps2 (W2 m c) (Proc.devRef .tc main_v2) = _
  after_results
  rw [W2_main_arg3]
  rfl

/-! ## The proof data family and the thread state -/

/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item: the core's generator register at some state and its
    dues, at nothing. -/
abbrev R (c : Dev nD) : sProp 𝕄 := iprop((∃ r, prngReg c r) ∗ ∃ W, owes (c : Thread nD τ) (0 : CellTallies nD τ sig Unit) W)
/-- A host stretch as a segment: its operations over the unscoped buffers held whole at the contents `W`, the rest
    riding along; it leaves them at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- The first normalisation call over the thread state: entered from every unscoped buffer at `W0`, left at `W1`.
    Its two arrays are split out of the unscoped buffers and put back at what the pipeline leaves; the generator
    register goes into the call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second normalisation call over the thread state: entered from every unscoped buffer at `W1`, left at `W2`.
    Its two arrays are split out of the unscoped buffers and put back at what the pipeline leaves; the generator
    register goes into the call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The contrastive call over the thread state: entered from every unscoped buffer at `W3`, left at `W4`. Its five
    arrays are split out of the unscoped buffers and put back at what the pipeline leaves. The call's invariant is not
    constant: before the first point it is the scoped state as the launch hands it (with the generator register), and
    after the last it gives that state back, the scratch columns' contents forgotten. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec2 c : sProp 𝕄) ⊢ (pdats m 2 c).Φ 0 from hin2 (E3 m) c)
    unfold Pipeline.ΦA
    iintro ⟨Hp, -, Hr⟩
    isplitl [Hr]; · iexact Hr
    iexact Hp
  hout c := by
    refine BIBase.Entails.trans (show (pdats m 2 c).Φ (Fin.last _) ⊢ (Pipeline.ΦA spec2 c : sProp 𝕄) from hout2 (E3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order: the two normalisation calls, the reshape from the contents they leave, the
    contrastive call, the mean from the contents it leaves. -/
abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .host (hseg hostOps3 hostOps3_sub hostOps3_fresh (W4 m)) ]
/-- @main is the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and every final memory holds each unscoped buffer at the last boundary's contents: the
    several-regions launch over the segments, whose thread states chain by construction, the last one read against
    the final state. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## What the last boundary holds

No host operation and no call writes an argument (a call reads it through an input window, which the pipeline leaves as
entered, or bypasses it), so the fold at an argument's buffer walks back to the launch memory; the result buffer holds
the mean's operations applied to the loss column the contrastive call leaves. -/

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_arr m c 0).trans <| ((dat0 (E0 m) c).arrAt_in 0 rfl _).trans (A_eq0 (E0 m) c 0)

theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_arr m c 0).trans <| ((dat1 (E1 m) c).arrAt_in 0 rfl _).trans <| (A_eq1 (E1 m) c 0).trans (E1_main_arg1 m c)

theorem W5_main_arg2 (c : Dev nD) : W5 m c (Proc.devRef .tc main_arg2) = m ((c : Thread nD τ).loc main_arg2) :=
  (W5_of m c main_arg2 (by decide)).trans <| (W4_arr m c 2).trans <| ((dat2 (E3 m) c).arrAt_in 2 rfl _).trans <|
    (A_eq2 (E3 m) c 2).trans (E3_main_arg2 m c)

theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans
    (W2_main_arg3 m c)

/-- The result: the sum of the loss column the contrastive call leaves, divided by the number of rows. -/
theorem W5_main_v5 (c : Dev nD) :
    W5 m c (Proc.devRef .tc main_v5)
      = Host.divf (Host.reduceAdd ((dat2 (E3 m) c).arrAt 4 cfg2.N) (constant S_ .f32 0x00000000#32) reducesTo_S8192x1_S_d0_1 h_S_)
          (constant S_ .f32 0x46000000#32) := by
  show StableHlo.after hostOps3 (W4 m c) (Proc.devRef .tc main_v5) = _
  after_results
  rw [show W4 m c (Proc.devRef .tc main_v3) = (dat2 (E3 m) c).arrAt 4 cfg2.N from W4_arr m c 4]

/-- THE FRAME: every weakly fair execution of @main terminates, nothing faulting, and every final memory has the four
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

/-- THE VALUE: besides, every final memory holds in the result buffer the mean of the loss column the contrastive call
    leaves when entered with the unit audio rows, the unit text rows, the weights and the column of positive indices. -/
theorem run_value (ρ : Dev nD → PrngReg) : θ_run defs (onTc (τ := τ) (main (F := F))) ⟨m, fun _ => 0, ρ⟩ (fun r => ∀ c : Dev nD,
      r.2.mem ((c.tc : Thread nD τ).loc main_v5)
        = Host.divf (Host.reduceAdd ((dat2 (E3 m) c).arrAt 4 cfg2.N) (constant S_ .f32 0x00000000#32) reducesTo_S8192x1_S_d0_1 h_S_)
            (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W5_main_v5 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

end Cert.KernelIdeal.Hand

end
-- ==== Proof.Spec.lean ====
/-
  The contrastive loss as ONE function of the four argument arrays, over the extended reals.

  Rows of the audio matrix `A` (8192 × 1024) and of the text matrix `T` (4096 × 1024) are divided by their
  Euclidean norms clamped below by ε; the logit of a pair is the inner product of the two unit rows divided by the
  temperature; row `b`'s positive column is the one whose index word is `P b`. With `m b c` the indicator of that
  column, row `b`'s loss is  -(Σ_c logit·m) + log (Σ_c exp(logit)·(1 - w)·(1 - m) + exp (Σ_c logit·m)),  and the
  result is the mean of the rows' losses. Nothing here mentions a program: both programs are shown to compute this.
-/
import Idealize.ShloMosaic.PureOps.Ideal

noncomputable section

namespace Cert.Spec

open Idealize.ShloMosaic

/-- ε, the lower clamp of a norm: the f32 word both programs carry. -/
def eps : EReal := Ideal.ofBits .f32 0x2B8CBCCC#32
/-- 1.0, as both programs carry it. -/
def one : EReal := Ideal.ofBits .f32 0x3F800000#32
/-- The temperature: the f32 word the reference divides by. -/
def temp : EReal := Ideal.ofBits .f32 0x3D8F5C29#32
/-- The number of rows, 8192.0, as both programs carry it. -/
def rows : EReal := Ideal.ofBits .f32 0x46000000#32

/-- The clamped Euclidean norm of row `r`. -/
def nrm {n : ℕ} (X : Fin n → Fin 1024 → EReal) (r : Fin n) : EReal :=
  max (Ideal.sqrt (∑ k : Fin 1024, X r k * X r k)) eps

/-- Row `r` scaled to unit length, entry `k`. -/
def unit {n : ℕ} (X : Fin n → Fin 1024 → EReal) (r : Fin n) (k : Fin 1024) : EReal :=
  Ideal.div (X r k) (nrm X r)

section
variable (A : Fin 8192 → Fin 1024 → EReal) (T : Fin 4096 → Fin 1024 → EReal)
  (W : Fin 8192 → Fin 4096 → EReal) (P : Fin 8192 → BitVec 32)

/-- The inner product of audio row `b` and text row `c`, both of unit length. -/
def dot (b : Fin 8192) (c : Fin 4096) : EReal := ∑ k : Fin 1024, unit A b k * unit T c k

/-- The logit: the inner product over the temperature. -/
def logit (b : Fin 8192) (c : Fin 4096) : EReal := Ideal.div (dot A T b c) temp

/-- The indicator of row `b`'s positive column. -/
def mask (b : Fin 8192) (c : Fin 4096) : EReal := if P b = BitVec.ofNat 32 c.val then 1 else 0

/-- The positive logit of row `b`, as the masked sum over the row. -/
def pos (b : Fin 8192) : EReal := ∑ c : Fin 4096, logit A T b c * mask P b c

/-- One weighted negative term. -/
def negw (b : Fin 8192) (c : Fin 4096) : EReal :=
  Ideal.exp (logit A T b c) * (one - W b c) * (one - mask P b c)

/-- Row `b`'s denominator. -/
def denom (b : Fin 8192) : EReal := (∑ c : Fin 4096, negw A T W P b c) + Ideal.exp (pos A T P b)

/-- Row `b`'s loss. -/
def lossRow (b : Fin 8192) : EReal := -(pos A T P b) + Ideal.log (denom A T W P b)

/-- The mean loss. -/
def loss : EReal := Ideal.div (∑ b : Fin 8192, lossRow A T W P b) rows

/-- Where the index word of row `b` names a column, the masked sum is the logit at that column. -/
theorem pos_eq (b : Fin 8192) (h : (P b).toNat < 4096) : pos A T P b = logit A T b ⟨(P b).toNat, h⟩ := by
  unfold pos
  rw [Finset.sum_eq_single (⟨(P b).toNat, h⟩ : Fin 4096)]
  · have : P b = BitVec.ofNat 32 (P b).toNat := by simp
    unfold mask; rw [if_pos this, mul_one]
  · intro c _ hc
    have : ¬ P b = BitVec.ofNat 32 c.val := by
      intro e
      apply hc
      apply Fin.ext
      have h2 : (P b).toNat = (BitVec.ofNat 32 c.val).toNat := congrArg BitVec.toNat e
      rw [BitVec.toNat_ofNat, Nat.mod_eq_of_lt (by have := c.isLt; omega)] at h2
      exact h2.symm
    unfold mask; rw [if_neg this, mul_zero]
  · intro hn; exact absurd (Finset.mem_univ _) hn

end

end Cert.Spec

end
-- ==== Proof.KiValue0.lean ====
/-
  What the first normalisation call leaves in its output array, as one function of the array it reads.

  The call cuts the audio matrix into eight blocks of 1024 whole rows. A row's clamped Euclidean norm depends on that
  row alone, and every block holds whole rows; so scaling the rows of a block gives the same entries as scaling the
  rows of the whole matrix and then taking the block: row `r` of block `t` is row `1024·t + r` of the matrix. The
  eight blocks tile the matrix (row `i` lies in block `i / 1024`), so after the last point the output array holds every
  row of the input divided by its clamped norm, `Cert.Spec.unit` of the input entry by entry. Nothing is assumed of
  the contents the call is entered with.
-/
import proofs.«421096_j23459111371346_1_alg».proof.Proof.KiRegion0
import proofs.«421096_j23459111371346_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## One entry of the body's result -/

/-- A vector `[a]` laid out as a column `[a, 1]` reads, at `(i, u)`, the vector at `i`: both sit at position `i` of the
    row-major order. -/
theorem col_cast0 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem col_spread0 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of row `r` runs over the entries `(r, k)`. -/
theorem row_lift0 (h : S1024x1024.Reduces [1] S1024) (r k : Fin 1024) : h.lift (ix1 r) k = ix2 r k :=
  funext fun a => Fin.ext (by match a with | ⟨0, _⟩ => rfl | ⟨1, _⟩ => rfl)

/-- Entry `(r, q)` of the body's result on a block `x`: the block's entry over the clamped norm of the block's row `r`.
    The change of format at the end is the identity on extended reals, and the sum of squares starts from the zero
    word, which adds nothing. -/
theorem unit_entry0 (x : Vec Ideal S1024x1024 .f32) (r q : Fin 1024) :
    k0_pay1 (F := Ideal) x (ix2 r q)
      = Ideal.div (x (ix2 r q)) (max (Ideal.sqrt (∑ k : Fin 1024, x (ix2 r k) * x (ix2 r k))) Cert.Spec.eps) := by
  unfold k0_pay1
  show Ideal.div (x (ix2 r q)) (broadcastTo S1024x1024 _ broadcasts_S1024x1_S1024x1024 (ix2 r q)) = _
  refine congrArg (Ideal.div (x (ix2 r q))) ?_
  refine (col_spread0 _ broadcasts_S1024x1_S1024x1024 r q).trans ?_
  show max (Ideal.sqrt (shapeCast S1024x1 _ shapeCasts_S1024_S1024x1 (ix2 r (0 : Fin 1)))) (Ideal.ofBits .f32 0x2B8CBCCC#32) = _
  refine congrArg (fun z => max (Ideal.sqrt z) Cert.Spec.eps) ?_
  refine (col_cast0 _ shapeCasts_S1024_S1024x1 r 0).trans ?_
  refine (Ideal.multiReduction_add_single (mulf x x) 0x00000000#32 reduces_S1024x1024_S1024 _ _ (ix1 r)).trans ?_
  exact Finset.sum_congr rfl fun k _ => congrArg (fun i => x i * x i) (row_lift0 reduces_S1024x1024_S1024 r k)

/-! ## From a block to the matrix -/

-- the arrays as the call finds them, per core
variable (V : (c : Dev nD) → (b : Ref sig .tc) → Buf (Elt Ideal) ((c : Thread nD τ).loc b))

/-- A matrix with every row scaled to unit length. -/
abbrev unitRows0 (X : S8192x1024.Idx → EReal) : S8192x1024.Idx → EReal :=
  fun j => Cert.Spec.unit (fun (b : Fin 8192) (k : Fin 1024) => X (ix2 b k)) (j 0) (j 1)

/-- Both windows' block at point `t` is block row `t`, block column 0. -/
theorem block_rows0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- If `x` is rows `1024·t … 1024·t + 1023` of `X`, the body's result on `x` is the same rows of `X` scaled: the norm of
    a row is a sum over that row alone, and the block has the whole row. -/
theorem block_unit0 (X : S8192x1024.Idx → EReal) (x : Vec Ideal S1024x1024 .f32) (t : ℕ) (ht : t < 8)
    (hx : ∀ (r q : Fin 1024), x (ix2 r q) = X (ix2 (⟨1024 * t + r.val, by omega⟩ : Fin 8192) q)) (r q : Fin 1024) :
    k0_pay1 (F := Ideal) x (ix2 r q) = unitRows0 X (ix2 (⟨1024 * t + r.val, by omega⟩ : Fin 8192) q) := by
  refine (unit_entry0 x r q).trans ?_
  show _ = Ideal.div (X (ix2 _ q)) (max (Ideal.sqrt (∑ k : Fin 1024, X (ix2 _ k) * X (ix2 _ k))) Cert.Spec.eps)
  rw [hx r q]
  simp only [hx]

/-- What point `t` writes back is block `t` of the input matrix with its rows scaled. -/
theorem written0 (c : Dev nD) (t : Fin cfg0.N) :
    (dat0 (F := Ideal) V c).flushed 1 t = ((cfg0.win 1).blk t).view.read (Elt Ideal) (unitRows0 (V c main_arg0)) := by
  show (cfg0.win 1).cut (grid0.coords t) ((dat0 V c).after 1 t) = _
  rw [after0_1]
  obtain ⟨e0, e1, e2, e3⟩ := block_rows0 t
  have hN : t.val < 8 := lt_of_lt_of_eq t.isLt (show cfg0.N = 8 from N_0)
  funext j
  obtain ⟨r, q, rfl⟩ : ∃ (r q : Fin 1024), j = ix2 r q := ⟨j 0, j 1, eq_ix2 j⟩
  have hemb : ((cfg0.win 1).blk t).view.emb (ix2 r q) = ix2 (⟨1024 * t.val + r.val, by omega⟩ : Fin 8192) q := by
    funext a; apply Fin.ext
    match a with
    | ⟨0, _⟩ => show win0_1.index t (0 : Fin 2) * 1024 + 1 * r.val = 1024 * t.val + r.val; omega
    | ⟨1, _⟩ => show win0_1.index t (1 : Fin 2) * 1024 + 1 * q.val = q.val; omega
  show k0_pay1 (F := Ideal) (iblk0 V c 0 t) (ix2 r q) = unitRows0 (V c main_arg0) (((cfg0.win 1).blk t).view.emb (ix2 r q))
  refine (block_unit0 (V c main_arg0) (iblk0 V c 0 t) t.val hN (fun r' q' => ?_) r q).trans (congrArg _ hemb.symm)
  show V c main_arg0 (((cfg0.win 0).blk t).view.emb (ix2 r' q')) = V c main_arg0 _
  refine congrArg _ (funext fun a => Fin.ext ?_)
  match a with
  | ⟨0, _⟩ => show win0_0.index t (0 : Fin 2) * 1024 + 1 * r'.val = 1024 * t.val + r'.val; omega
  | ⟨1, _⟩ => show win0_0.index t (1 : Fin 2) * 1024 + 1 * q'.val = q'.val; omega

/-! ## The blocks tile the matrix -/

/-- An entry of the matrix is in point `t`'s output block iff each coordinate is in the block's range on its axis. -/
theorem in_block0 (t : Fin cfg0.N) (i : S8192x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- Every entry is written back by some point: row `i` by point `i / 1024`. -/
theorem covered0 (i : S8192x1024.Idx) : ∃ t : Fin cfg0.N, (cfg0.win 1).flush t = true ∧ i ∈ ((cfg0.win 1).blk t).view.set := by
  have hi0 : (i 0).val < 8192 := (i 0).isLt
  have hi1 : (i 1).val < 1024 := (i 1).isLt
  obtain ⟨t, ht⟩ : ∃ t : Fin cfg0.N, t.val = (i 0).val / 1024 :=
    ⟨⟨(i 0).val / 1024, lt_of_lt_of_eq (by omega : (i 0).val / 1024 < 8) (show cfg0.N = 8 from N_0).symm⟩, rfl⟩
  obtain ⟨e0, e1, e2, e3⟩ := block_rows0 t
  refine ⟨t, flush0_1 t, ?_⟩
  rw [in_block0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-! ## The output array after the call -/

/-- After the call the output array holds every row of the input matrix divided by its clamped norm, whatever the
    arrays held at entry. -/
theorem norm0_value (c : Dev nD) :
    (dat0 (F := Ideal) V c).arrAt 1 cfg0.N
      = fun j => Cert.Spec.unit (fun (b : Fin 8192) (k : Fin 1024) => V c main_arg0 (ix2 b k)) (j 0) (j 1) :=
  (dat0 V c).arrAt_eq_of_cover 1 (unitRows0 (V c main_arg0)) (fun t _ => written0 V c t) covered0

/-- The same at an entry given by its coordinates. -/
theorem norm0_value_at (c : Dev nD) (b : Fin 8192) (k : Fin 1024) :
    (dat0 (F := Ideal) V c).arrAt 1 cfg0.N (ix2 b k)
      = Cert.Spec.unit (fun (b : Fin 8192) (k : Fin 1024) => V c main_arg0 (ix2 b k)) b k :=
  congrFun (norm0_value V c) (ix2 b k)

end Cert.KernelIdeal.Hand

end
-- ==== Proof.KiValue1.lean ====
/-
  What the second normalisation call leaves in its output array, as one function of the array it reads.

  The call cuts the text matrix into four blocks of 1024 whole rows. A row's clamped Euclidean norm depends on that
  row alone, and every block holds whole rows; so scaling the rows of a block gives the same entries as scaling the
  rows of the whole matrix and then taking the block: row `r` of block `t` is row `1024·t + r` of the matrix. The
  four blocks tile the matrix (row `i` lies in block `i / 1024`), so after the last point the output array holds every
  row of the input divided by its clamped norm, `Cert.Spec.unit` of the input entry by entry. Nothing is assumed of
  the contents the call is entered with.
-/
import proofs.«421096_j23459111371346_1_alg».proof.Proof.KiRegion1
import proofs.«421096_j23459111371346_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## One entry of the body's result -/

/-- A vector `[a]` laid out as a column `[a, 1]` reads, at `(i, u)`, the vector at `i`: both sit at position `i` of the
    row-major order. -/
theorem col_cast1 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem col_spread1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of row `r` runs over the entries `(r, k)`. -/
theorem row_lift1 (h : S1024x1024.Reduces [1] S1024) (r k : Fin 1024) : h.lift (ix1 r) k = ix2 r k :=
  funext fun a => Fin.ext (by match a with | ⟨0, _⟩ => rfl | ⟨1, _⟩ => rfl)

/-- Entry `(r, q)` of the body's result on a block `x`: the block's entry over the clamped norm of the block's row `r`.
    The change of format at the end is the identity on extended reals, and the sum of squares starts from the zero
    word, which adds nothing. -/
theorem unit_entry1 (x : Vec Ideal S1024x1024 .f32) (r q : Fin 1024) :
    k1_pay1 (F := Ideal) x (ix2 r q)
      = Ideal.div (x (ix2 r q)) (max (Ideal.sqrt (∑ k : Fin 1024, x (ix2 r k) * x (ix2 r k))) Cert.Spec.eps) := by
  unfold k1_pay1
  show Ideal.div (x (ix2 r q)) (broadcastTo S1024x1024 _ broadcasts_S1024x1_S1024x1024 (ix2 r q)) = _
  refine congrArg (Ideal.div (x (ix2 r q))) ?_
  refine (col_spread1 _ broadcasts_S1024x1_S1024x1024 r q).trans ?_
  show max (Ideal.sqrt (shapeCast S1024x1 _ shapeCasts_S1024_S1024x1 (ix2 r (0 : Fin 1)))) (Ideal.ofBits .f32 0x2B8CBCCC#32) = _
  refine congrArg (fun z => max (Ideal.sqrt z) Cert.Spec.eps) ?_
  refine (col_cast1 _ shapeCasts_S1024_S1024x1 r 0).trans ?_
  refine (Ideal.multiReduction_add_single (mulf x x) 0x00000000#32 reduces_S1024x1024_S1024 _ _ (ix1 r)).trans ?_
  exact Finset.sum_congr rfl fun k _ => congrArg (fun i => x i * x i) (row_lift1 reduces_S1024x1024_S1024 r k)

/-! ## From a block to the matrix -/

-- the arrays as the call finds them, per core
variable (V : (c : Dev nD) → (b : Ref sig .tc) → Buf (Elt Ideal) ((c : Thread nD τ).loc b))

/-- A matrix with every row scaled to unit length. -/
abbrev unitRows1 (X : S4096x1024.Idx → EReal) : S4096x1024.Idx → EReal :=
  fun j => Cert.Spec.unit (fun (b : Fin 4096) (k : Fin 1024) => X (ix2 b k)) (j 0) (j 1)

/-- Both windows' block at point `t` is block row `t`, block column 0. -/
theorem block_rows1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- If `x` is rows `1024·t … 1024·t + 1023` of `X`, the body's result on `x` is the same rows of `X` scaled: the norm of
    a row is a sum over that row alone, and the block has the whole row. -/
theorem block_unit1 (X : S4096x1024.Idx → EReal) (x : Vec Ideal S1024x1024 .f32) (t : ℕ) (ht : t < 4)
    (hx : ∀ (r q : Fin 1024), x (ix2 r q) = X (ix2 (⟨1024 * t + r.val, by omega⟩ : Fin 4096) q)) (r q : Fin 1024) :
    k1_pay1 (F := Ideal) x (ix2 r q) = unitRows1 X (ix2 (⟨1024 * t + r.val, by omega⟩ : Fin 4096) q) := by
  refine (unit_entry1 x r q).trans ?_
  show _ = Ideal.div (X (ix2 _ q)) (max (Ideal.sqrt (∑ k : Fin 1024, X (ix2 _ k) * X (ix2 _ k))) Cert.Spec.eps)
  rw [hx r q]
  simp only [hx]

/-- What point `t` writes back is block `t` of the input matrix with its rows scaled. -/
theorem written1 (c : Dev nD) (t : Fin cfg1.N) :
    (dat1 (F := Ideal) V c).flushed 1 t = ((cfg1.win 1).blk t).view.read (Elt Ideal) (unitRows1 (V c main_arg1)) := by
  show (cfg1.win 1).cut (grid1.coords t) ((dat1 V c).after 1 t) = _
  rw [after1_1]
  obtain ⟨e0, e1, e2, e3⟩ := block_rows1 t
  have hN : t.val < 4 := lt_of_lt_of_eq t.isLt (show cfg1.N = 4 from N_1)
  funext j
  obtain ⟨r, q, rfl⟩ : ∃ (r q : Fin 1024), j = ix2 r q := ⟨j 0, j 1, eq_ix2 j⟩
  have hemb : ((cfg1.win 1).blk t).view.emb (ix2 r q) = ix2 (⟨1024 * t.val + r.val, by omega⟩ : Fin 4096) q := by
    funext a; apply Fin.ext
    match a with
    | ⟨0, _⟩ => show win1_1.index t (0 : Fin 2) * 1024 + 1 * r.val = 1024 * t.val + r.val; omega
    | ⟨1, _⟩ => show win1_1.index t (1 : Fin 2) * 1024 + 1 * q.val = q.val; omega
  show k1_pay1 (F := Ideal) (iblk1 V c 0 t) (ix2 r q) = unitRows1 (V c main_arg1) (((cfg1.win 1).blk t).view.emb (ix2 r q))
  refine (block_unit1 (V c main_arg1) (iblk1 V c 0 t) t.val hN (fun r' q' => ?_) r q).trans (congrArg _ hemb.symm)
  show V c main_arg1 (((cfg1.win 0).blk t).view.emb (ix2 r' q')) = V c main_arg1 _
  refine congrArg _ (funext fun a => Fin.ext ?_)
  match a with
  | ⟨0, _⟩ => show win1_0.index t (0 : Fin 2) * 1024 + 1 * r'.val = 1024 * t.val + r'.val; omega
  | ⟨1, _⟩ => show win1_0.index t (1 : Fin 2) * 1024 + 1 * q'.val = q'.val; omega

/-! ## The blocks tile the matrix -/

/-- An entry of the matrix is in point `t`'s output block iff each coordinate is in the block's range on its axis. -/
theorem in_block1 (t : Fin cfg1.N) (i : S4096x1024.Idx) :
    i ∈ ((cfg1.win 1).blk t).view.set ↔ ∀ a : Fin 2, win1_1.index t a * S1024x1024.size a ≤ (i a).val ∧ (i a).val < win1_1.index t a * S1024x1024.size a + S1024x1024.size a := by
  show i ∈ ((View.whole main_v1).slice (win1_1.rect t)).set ↔ _
  rw [View.set_slice_whole, Rect.mem_set_unit]
  exact Iff.rfl

/-- Every entry is written back by some point: row `i` by point `i / 1024`. -/
theorem covered1 (i : S4096x1024.Idx) : ∃ t : Fin cfg1.N, (cfg1.win 1).flush t = true ∧ i ∈ ((cfg1.win 1).blk t).view.set := by
  have hi0 : (i 0).val < 4096 := (i 0).isLt
  have hi1 : (i 1).val < 1024 := (i 1).isLt
  obtain ⟨t, ht⟩ : ∃ t : Fin cfg1.N, t.val = (i 0).val / 1024 :=
    ⟨⟨(i 0).val / 1024, lt_of_lt_of_eq (by omega : (i 0).val / 1024 < 4) (show cfg1.N = 4 from N_1).symm⟩, rfl⟩
  obtain ⟨e0, e1, e2, e3⟩ := block_rows1 t
  refine ⟨t, flush1_1 t, ?_⟩
  rw [in_block1]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 1024 ≤ (i 1).val ∧ (i 1).val < win1_1.index t (1 : Fin 2) * 1024 + 1024; omega

/-! ## The output array after the call -/

/-- After the call the output array holds every row of the input matrix divided by its clamped norm, whatever the
    arrays held at entry. -/
theorem norm1_value (c : Dev nD) :
    (dat1 (F := Ideal) V c).arrAt 1 cfg1.N
      = fun j => Cert.Spec.unit (fun (b : Fin 4096) (k : Fin 1024) => V c main_arg1 (ix2 b k)) (j 0) (j 1) :=
  (dat1 V c).arrAt_eq_of_cover 1 (unitRows1 (V c main_arg1)) (fun t _ => written1 V c t) covered1

/-- The same at an entry given by its coordinates. -/
theorem norm1_value_at (c : Dev nD) (b : Fin 4096) (k : Fin 1024) :
    (dat1 (F := Ideal) V c).arrAt 1 cfg1.N (ix2 b k)
      = Cert.Spec.unit (fun (b : Fin 4096) (k : Fin 1024) => V c main_arg1 (ix2 b k)) b k :=
  congrFun (norm1_value V c) (ix2 b k)

end Cert.KernelIdeal.Hand

end
-- ==== Proof.Consts.lean ====
/-
  The temperature, read exactly. The reference divides the inner products by the f32 word nearest 0.07, which is the
  dyadic rational 9395241 / 2^27; the kernel multiplies by the constant named as that number's reciprocal. On every
  extended real the product with the reciprocal is the quotient.
-/
import Idealize.ShloMosaic.PureOps.Ideal
import proofs.«421096_j23459111371346_1_alg».proof.Proof.Spec

noncomputable section

namespace Cert.Consts

open Idealize.ShloMosaic

/-- The reciprocal temperature the kernel's constant is named as. -/
def kappa : EReal := ((134217728 / 9395241 : ℝ) : EReal)

/-- The reference's divisor word denotes 9395241 / 134217728. -/
theorem temp_eq : Cert.Spec.temp = ((9395241 / 134217728 : ℝ) : EReal) := by
  unfold Cert.Spec.temp
  simp [Ideal.ofBits, Ideal.ieee, -EReal.coe_mul]; norm_num

/-- The product with the named reciprocal is the quotient by the temperature, infinities included. -/
theorem mul_kappa (x : EReal) : x * kappa = Ideal.div x Cert.Spec.temp := by
  rw [temp_eq, Ideal.div_coe (by norm_num : (9395241 / 134217728 : ℝ) ≠ 0)]
  unfold kappa
  congr 2
  norm_num

end Cert.Consts

end
-- ==== Proof.KiValue2a.lean ====
/-
  The contrastive kernel's arithmetic at one entry, over the extended reals. For a point with column tile `ci`, unit
  audio rows `x0` (1024 × 1024), unit text rows `x1` (512 × 1024), weights `x2` (1024 × 512) and positive index words
  `x3` (1024 × 1): the scaled inner products, the indicator of the positive column, and what one accumulation step
  adds to each scratch column at a row — a sum over the tile's 512 columns.
-/
import proofs.«421096_j23459111371346_1_alg».proof.Proof.Gen.KernelIdeal.Skeleton
import proofs.«421096_j23459111371346_1_alg».proof.Proof.Spec
import proofs.«421096_j23459111371346_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.ValueIdx

/-! ## Columns: the layout steps around a row sum -/

/-- A vector of length `a` viewed as an `a × 1` column reads, at row `i`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along each row of an `a × b` matrix, kept as a column: at row `r` it is the sum of the row's entries. -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (r : Fin a) (u : Fin 1) :
    shapeCast ⟨2, ![a, 1]⟩ (multiReduction (F := Ideal) .add [1] ⟨1, ![a]⟩ v acc h hφ hacc) hc (ix2 r u)
      = ∑ q : Fin b, v (ix2 r q) := by
  refine (shapeCast_a_a1_apply _ hc r u).trans ?_
  refine (Ideal.multiReduction_add_single v acc h hφ hacc (ix1 r)).trans ?_
  refine Finset.sum_congr rfl fun q _ => congrArg v ?_
  funext c
  refine Fin.ext ?_
  match c with
  | ⟨0, _⟩ => rfl
  | ⟨1, _⟩ => rfl

/-! ## The scaled inner products -/

/-- The kernel's named reciprocal temperature denotes, over the extended reals, the rational the table gives it. -/
theorem inv_temp_eq : Named.named (F := Ideal) κ "inv_temp" (φ := .f32) 0x41649249#32 = Cert.Consts.kappa :=
  IdealRules.named_const.ideal_named_scalar _ _ _ _ rfl

/-- The tile product's left operand is read at the output row … -/
theorem lhs_tile_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- … and at the contraction position along its columns; -/
theorem lhs_tile_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- the right operand at the contraction position along its rows … -/
theorem rhs_tile_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- … and at the output column. -/
theorem rhs_tile_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The tile product into a zero accumulator: entry `(r, q)` is the inner product of row `r` of the left operand and
    column `q` of the right. -/
theorem matmul_tile_apply (L : FVec Ideal S1024x1024 .bf16) (R : FVec Ideal S1024x512 .bf16) (r : Fin 1024) (q : Fin 512) :
    FloatOps.matmul dot_S1024x1024_S1024x512_S1024x512_1_0_0_1_n_n none L R (constant (F := Ideal) S1024x512 .f32 0x00000000#32) (ix2 r q)
      = ∑ k : Fin 1024, L (ix2 r k) * R (ix2 k q) := by
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r q) ((contrEquiv1 dot_S1024x1024_S1024x512_S1024x512_1_0_0_1_n_n 1024 rfl rfl).symm k) = ix2 r k := funext fun a => Fin.ext (by
    match a with
    | ⟨0, _⟩ => exact lhs_tile_0 _ _
    | ⟨1, _⟩ => exact (lhs_tile_1 _ _).trans hk)
  have er : dot_S1024x1024_S1024x512_S1024x512_1_0_0_1_n_n.rhsIdx (ix2 r q) ((contrEquiv1 dot_S1024x1024_S1024x512_S1024x512_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-- The scaled inner product of audio row `r` and text row `q` of the tile. -/
theorem pay5_apply (x0 : Vec Ideal S1024x1024 .bf16) (x1 : Vec Ideal S512x1024 .bf16) (r : Fin 1024) (q : Fin 512) :
    k2_pay5 (F := Ideal) x0 x1 (ix2 r q) = (∑ k : Fin 1024, x0 (ix2 r k) * x1 (ix2 q k)) * Cert.Consts.kappa := by
  unfold k2_pay5
  have h1 : FloatOps.matmul (φ₁ := .bf16) (φ₂ := .bf16) dot_S1024x1024_S1024x512_S1024x512_1_0_0_1_n_n none
      (shapeCast S1024x1024 x0 shapeCasts_S1024x1024_S1024x1024)
      (transpose S1024x512 [1, 0] (shapeCast S512x1024 x1 shapeCasts_S512x1024_S512x1024) transposes_S512x1024_p1_0_S1024x512)
      (constant (F := Ideal) S1024x512 .f32 0x00000000#32) (ix2 r q) = ∑ k : Fin 1024, x0 (ix2 r k) * x1 (ix2 q k) := by
    refine (matmul_tile_apply _ _ r q).trans ?_
    refine Finset.sum_congr rfl fun k _ => ?_
    refine congrArg₂ (· * ·) (congrFun (shapeCast_self x0 _) _) ?_
    exact (transpose_ix2_apply _ _ k q).trans (congrFun (shapeCast_self x1 _) _)
  exact congrArg₂ (· * ·) h1 inv_temp_eq

/-! ## The indicator of the positive column -/

/-- The column number of entry `q` of column tile `ci`, as the kernel computes it on words. -/
theorem tile_col_word (ci q : ℕ) : BitVec.ofNat 32 ci * 512#32 + BitVec.ofNat 32 q = BitVec.ofNat 32 (512 * ci + q) := by
  rw [BitVec.ofNat_add, BitVec.ofNat_mul, BitVec.mul_comm]

/-- A word comparison widened to 32 bits and read as a signed integer is 1 where the words agree and 0 elsewhere. -/
theorem sitofp_eq_bit (x y : BitVec 32) :
    FloatOps.sitofp (F := Ideal) .f32 ((IntOp.cmpi .eq x y).setWidth 32) = if y = x then (1 : EReal) else 0 := by
  by_cases h : y = x
  · subst h
    rw [if_pos rfl]
    show (((((BitVec.ofBool (y == y)).setWidth 32).toInt : ℤ) : ℝ) : EReal) = 1
    simp
  · rw [if_neg h]
    have hb : (x == y) = false := by
      rw [beq_eq_false_iff_ne]; exact fun e => h e.symm
    show (((((BitVec.ofBool (x == y)).setWidth 32).toInt : ℤ) : ℝ) : EReal) = 0
    rw [hb]
    simp

/-- The indicator that row `r`'s positive index word names column `512·ci + q`. -/
theorem pay6_apply (i : grid2.Coords) (x3 : Vec Ideal S1024x1 .i32) (r : Fin 1024) (q : Fin 512) :
    k2_pay6 (F := Ideal) i x3 (ix2 r q) = if x3 (ix2 r 0) = BitVec.ofNat 32 (512 * (i 1).val + q.val) then 1 else 0 := by
  unfold k2_pay6
  refine (sitofp_eq_bit _ _).trans ?_
  have e1 : broadcastTo S1024x512 (shapeCast S1024x1 x3 shapeCasts_S1024x1_S1024x1) broadcasts_S1024x1_S1024x512 (ix2 r q)
      = x3 (ix2 r 0) :=
    (broadcastTo_a1_ab_apply _ _ r q).trans (congrFun (shapeCast_self x3 _) _)
  have hi : iota .tc S1024x512 32 [1] iota_S1024x512_d1_w32 (ix2 r q) = BitVec.ofNat 32 q.val :=
    iota_single_apply .tc S1024x512 32 1 iota_S1024x512_d1_w32 (ix2 r q)
  have e2 : addi (broadcast S1024x512 (Scalar.muli (BitVec.ofNat 32 (i 1).val) 512#32))
      (iota .tc S1024x512 32 [1] iota_S1024x512_d1_w32) (ix2 r q) = BitVec.ofNat 32 (512 * (i 1).val + q.val) := by
    show BitVec.ofNat 32 (i 1).val * 512#32 + iota .tc S1024x512 32 [1] iota_S1024x512_d1_w32 (ix2 r q) = _
    rw [hi]
    exact tile_col_word _ _
  exact congrArg₂ (fun a b : BitVec 32 => if a = b then (1 : EReal) else 0) e1 e2

/-- One step of the weighted negative sum at row `r`: what the column held plus the tile's terms. -/
theorem pay7_apply (i : grid2.Coords) (x0 : Vec Ideal S1024x1024 .bf16) (x1 : Vec Ideal S512x1024 .bf16) (x3 : Vec Ideal S1024x1 .i32)
    (x2 : Vec Ideal S1024x512 .f32) (s : Vec Ideal S1024x1 .f32) (r : Fin 1024) :
    k2_pay7 (F := Ideal) i x0 x1 x3 x2 s (ix2 r 0)
      = s (ix2 r 0) + ∑ q : Fin 512, Ideal.exp (k2_pay5 (F := Ideal) x0 x1 (ix2 r q)) * (Cert.Spec.one - x2 (ix2 r q))
          * (Cert.Spec.one - k2_pay6 (F := Ideal) i x3 (ix2 r q)) := by
  unfold k2_pay7
  refine (congrFun (shapeCast_self _ _) _).trans ?_
  refine congrArg (s (ix2 r 0) + ·) ?_
  refine (rowSum_apply _ _ _ _ _ _ r 0).trans ?_
  exact Finset.sum_congr rfl fun q _ => rfl

/-- One step of the positive logit at row `r`: what the column held plus the tile's masked logits. -/
theorem pay1_apply (v10 v20 : FVec Ideal S1024x512 .f32) (s : Vec Ideal S1024x1 .f32) (r : Fin 1024) :
    k2_pay1 (F := Ideal) v10 v20 s (ix2 r 0) = s (ix2 r 0) + ∑ q : Fin 512, v10 (ix2 r q) * v20 (ix2 r q) := by
  unfold k2_pay1
  refine (congrFun (shapeCast_self _ _) _).trans ?_
  refine congrArg (s (ix2 r 0) + ·) ?_
  exact rowSum_apply (mulf v10 v20) _ _ _ _ _ r 0

/-- The loss of row `r` from the two columns (the second read twice). -/
theorem pay2_apply (a b b' : Vec Ideal S1024x1 .f32) (r : Fin 1024) :
    k2_pay2 (F := Ideal) a b b' (ix2 r 0) = -(b' (ix2 r 0)) + Ideal.log (a (ix2 r 0) + Ideal.exp (b (ix2 r 0))) := by
  unfold k2_pay2
  show (Ideal.ofBits .f32 0x00000000#32 - b' (ix2 r 0)) + Ideal.log (a (ix2 r 0) + Ideal.exp (b (ix2 r 0))) = _
  rw [Ideal.ofBits_zero_f32, zero_sub]

/-- The reset leaves zeros in both columns. -/
theorem pay3_apply (r : Fin 1024) : k2_pay3 (F := Ideal) (ix2 r 0) = 0 := by
  unfold k2_pay3
  refine (congrFun (shapeCast_self _ _) _).trans ?_
  exact Ideal.ofBits_zero_f32

theorem pay4_apply (r : Fin 1024) : k2_pay4 (F := Ideal) (ix2 r 0) = 0 := by
  unfold k2_pay4
  refine (congrFun (shapeCast_self _ _) _).trans ?_
  exact Ideal.ofBits_zero_f32

end Cert.KernelIdeal.Hand

end
-- ==== Proof.KiValue2b.lean ====
/-
  The accumulation over the eight column tiles of one row tile, as an invariant of the two scratch columns.

  For row tile `bi`, after `n` column tiles the first column holds at row `r` the sum of the weighted negative terms
  of audio row `1024·bi + r` over the columns below `512·n`, and the second the masked logits' sum over the same
  columns. The reset establishes it at `n = 0`; one step of the body carries it from `n` to `n + 1`; after the
  eighth tile the sums run over all 4096 columns and the stored column is the row's loss.
-/
import proofs.«421096_j23459111371346_1_alg».proof.Proof.KiRegion2
import proofs.«421096_j23459111371346_1_alg».proof.Proof.KiValue2a
import proofs.«421096_j23459111371346_1_alg».proof.Proof.Spec
import proofs.«421096_j23459111371346_1_alg».proof.Proof.Consts
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- Row `r` of row tile `bi`, as a row of the whole matrix. -/
def rowOf (bi : Fin 8) (r : Fin 1024) : Fin 8192 := ⟨1024 * bi.val + r.val, by have := bi.isLt; have := r.isLt; omega⟩
/-- Column `q` of column tile `n`, as a column of the whole matrix. -/
def colOf (n : Fin 8) (q : Fin 512) : Fin 4096 := ⟨512 * n.val + q.val, by have := n.isLt; have := q.isLt; omega⟩

section
variable (A : Fin 8192 → Fin 1024 → EReal) (T : Fin 4096 → Fin 1024 → EReal)
  (W : Fin 8192 → Fin 4096 → EReal) (P : Fin 8192 → BitVec 32)

/-- The columns below `512·n`. -/
def colsBelow (n : ℕ) : Finset (Fin 4096) := Finset.univ.filter fun c' => c'.val < 512 * n

/-- What the two scratch columns hold for row tile `bi` after `n` column tiles. -/
def TileInv (bi : Fin 8) (n : ℕ) (s : Vec Ideal S1024x1 .f32 × Vec Ideal S1024x1 .f32) : Prop :=
  ∀ r : Fin 1024,
    s.1 (ix2 r 0) = ∑ c' ∈ colsBelow n, Cert.Spec.negw A T W P (rowOf bi r) c'
    ∧ s.2 (ix2 r 0) = ∑ c' ∈ colsBelow n, Cert.Spec.logit A T (rowOf bi r) c' * Cert.Spec.mask P (rowOf bi r) c'

/-- No column lies below the first. -/
theorem colsBelow_zero : colsBelow 0 = ∅ := by
  unfold colsBelow
  apply Finset.filter_false_of_mem
  intro c _
  omega

/-- All 4096 columns lie below the end of the eighth tile. -/
theorem colsBelow_eight : colsBelow 8 = Finset.univ := by
  unfold colsBelow
  apply Finset.filter_true_of_mem
  intro c _
  have := c.isLt
  omega

/-- The columns of a tile are distinct. -/
theorem colOf_injective (n : Fin 8) : Function.Injective (colOf n) := by
  intro q q' h
  have h' : 512 * n.val + q.val = 512 * n.val + q'.val := congrArg Fin.val h
  apply Fin.ext
  omega

/-- The columns below the end of tile `n` are those below its start together with the tile's own. -/
theorem colsBelow_succ (n : Fin 8) :
    colsBelow (n.val + 1) = colsBelow n.val ∪ Finset.univ.image (colOf n) := by
  ext c
  simp only [colsBelow, Finset.mem_filter, Finset.mem_univ, true_and, Finset.mem_union, Finset.mem_image]
  constructor
  · intro h
    by_cases hc : c.val < 512 * n.val
    · exact Or.inl hc
    · right
      refine ⟨⟨c.val - 512 * n.val, by omega⟩, ?_⟩
      apply Fin.ext
      show 512 * n.val + (c.val - 512 * n.val) = c.val
      omega
  · rintro (h | ⟨q, rfl⟩)
    · omega
    · show 512 * n.val + q.val < 512 * (n.val + 1)
      have := q.isLt
      omega

/-- A tile's columns are none of those below its start. -/
theorem colsBelow_disjoint (n : Fin 8) : Disjoint (colsBelow n.val) (Finset.univ.image (colOf n)) := by
  rw [Finset.disjoint_left]
  intro c hc hc'
  simp only [colsBelow, Finset.mem_filter, Finset.mem_univ, true_and] at hc
  obtain ⟨q, _, rfl⟩ := Finset.mem_image.mp hc'
  have h' : (colOf n q).val = 512 * n.val + q.val := rfl
  omega

/-- A sum over the columns below the end of tile `n` is the sum over those below its start plus the tile's sum. -/
theorem sum_colsBelow_succ {M : Type*} [AddCommMonoid M] (n : Fin 8) (f : Fin 4096 → M) :
    ∑ c' ∈ colsBelow (n.val + 1), f c' = ∑ c' ∈ colsBelow n.val, f c' + ∑ q : Fin 512, f (colOf n q) := by
  rw [colsBelow_succ, Finset.sum_union (colsBelow_disjoint n),
    Finset.sum_image (fun a _ b _ h => colOf_injective n h)]

/-- On the tile's unit rows the scaled inner product is the logit of the pair. -/
theorem pay5_logit (bi n : Fin 8)
    (x0 : Vec Ideal S1024x1024 .bf16) (x1 : Vec Ideal S512x1024 .bf16)
    (hx0 : ∀ (r : Fin 1024) (k : Fin 1024), x0 (ix2 r k) = Cert.Spec.unit A (rowOf bi r) k)
    (hx1 : ∀ (q : Fin 512) (k : Fin 1024), x1 (ix2 q k) = Cert.Spec.unit T (colOf n q) k)
    (r : Fin 1024) (q : Fin 512) :
    k2_pay5 (F := Ideal) x0 x1 (ix2 r q) = Cert.Spec.logit A T (rowOf bi r) (colOf n q) := by
  rw [pay5_apply, Cert.Consts.mul_kappa]
  unfold Cert.Spec.logit Cert.Spec.dot
  congr 1
  apply Finset.sum_congr rfl
  intro k _
  rw [hx0, hx1]

/-- On the tile's index words the indicator is the mask of the pair. -/
theorem pay6_mask (bi n : Fin 8) (i : grid2.Coords) (hi : (i 1).val = n.val)
    (x3 : Vec Ideal S1024x1 .i32) (hx3 : ∀ r : Fin 1024, x3 (ix2 r 0) = P (rowOf bi r))
    (r : Fin 1024) (q : Fin 512) :
    k2_pay6 (F := Ideal) i x3 (ix2 r q) = Cert.Spec.mask P (rowOf bi r) (colOf n q) := by
  rw [pay6_apply, hx3, hi]
  rfl

/-- The reset: no column yet, both sums empty. -/
theorem tileInv_init (bi : Fin 8) : TileInv A T W P bi 0 (init2 (F := Ideal)) := by
  intro r
  refine ⟨?_, ?_⟩
  · show k2_pay3 (F := Ideal) (ix2 r 0) = _
    rw [pay3_apply, colsBelow_zero, Finset.sum_empty]
  · show k2_pay4 (F := Ideal) (ix2 r 0) = _
    rw [pay4_apply, colsBelow_zero, Finset.sum_empty]

/-- One body step at column tile `n` of row tile `bi`, on blocks that are the tile's rows of the unit audio matrix,
    the tile's rows of the unit text matrix, the tile of the weights and the tile's positive index words. -/
theorem tileInv_step (bi n : Fin 8) (i : grid2.Coords) (hi : (i 1).val = n.val)
    (x0 : Vec Ideal S1024x1024 .bf16) (x1 : Vec Ideal S512x1024 .bf16) (x2 : Vec Ideal S1024x512 .f32) (x3 : Vec Ideal S1024x1 .i32)
    (hx0 : ∀ (r : Fin 1024) (k : Fin 1024), x0 (ix2 r k) = Cert.Spec.unit A (rowOf bi r) k)
    (hx1 : ∀ (q : Fin 512) (k : Fin 1024), x1 (ix2 q k) = Cert.Spec.unit T (colOf n q) k)
    (hx2 : ∀ (r : Fin 1024) (q : Fin 512), x2 (ix2 r q) = W (rowOf bi r) (colOf n q))
    (hx3 : ∀ r : Fin 1024, x3 (ix2 r 0) = P (rowOf bi r))
    (s : Vec Ideal S1024x1 .f32 × Vec Ideal S1024x1 .f32) (hs : TileInv A T W P bi n.val s) :
    TileInv A T W P bi (n.val + 1) (step2 (F := Ideal) i x0 x1 x2 x3 s) := by
  intro r
  obtain ⟨h1, h2⟩ := hs r
  refine ⟨?_, ?_⟩
  · show k2_pay7 (F := Ideal) i x0 x1 x3 x2 s.1 (ix2 r 0) = _
    rw [pay7_apply, sum_colsBelow_succ, h1]
    congr 1
    apply Finset.sum_congr rfl
    intro q _
    rw [pay5_logit A T bi n x0 x1 hx0 hx1, pay6_mask P bi n i hi x3 hx3, hx2]
    rfl
  · show k2_pay1 (F := Ideal) (k2_pay5 x0 x1) (k2_pay6 i x3) s.2 (ix2 r 0) = _
    rw [pay1_apply, sum_colsBelow_succ, h2]
    congr 1
    apply Finset.sum_congr rfl
    intro q _
    rw [pay5_logit A T bi n x0 x1 hx0 hx1, pay6_mask P bi n i hi x3 hx3]

/-- After the eighth tile the stored column is the rows' losses. -/
theorem tileInv_fin (bi : Fin 8) (s : Vec Ideal S1024x1 .f32 × Vec Ideal S1024x1 .f32) (hs : TileInv A T W P bi 8 s) (r : Fin 1024) :
    fin2 (F := Ideal) s (ix2 r 0) = Cert.Spec.lossRow A T W P (rowOf bi r) := by
  obtain ⟨h1, h2⟩ := hs r
  show k2_pay2 (F := Ideal) s.1 s.2 s.2 (ix2 r 0) = _
  rw [pay2_apply, h1, h2, colsBelow_eight]
  rfl

end

end Cert.KernelIdeal.Hand

end
-- ==== Proof.KiValue2c.lean ====
/-
  What the contrastive call leaves in its output array: the column of row losses.

  Point `t = 8·bi + ci` reads rows `1024·bi …` of the unit audio matrix, rows `512·ci …` of the unit text matrix, the
  matching tile of the weights and the row tile's positive index words. By induction along a row tile's eight points the
  scratch columns satisfy the tile invariant; at `ci = 7` the body stores the row tile's losses, the only points at
  which the output window is written back, and the eight row tiles cover the 8192 rows.
-/
import proofs.«421096_j23459111371346_1_alg».proof.Proof.KiRegion2
import proofs.«421096_j23459111371346_1_alg».proof.Proof.KiValue2b
import proofs.«421096_j23459111371346_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The printed index maps and the column-tile coordinate, at every point of the 8 × 8 grid. -/
theorem gridFacts : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8
    ∧ win2_3.index t (0 : Fin 2) = t.val / 8 ∧ win2_3.index t (1 : Fin 2) = 0
    ∧ win2_4.index t (0 : Fin 2) = t.val / 8 ∧ win2_4.index t (1 : Fin 2) = 0
    ∧ ((grid2.coords t) (1 : Fin 2)).val = t.val % 8 :=
  (by decide +kernel : ∀ t : Fin grid2.N, _)

/-- The row tile of point `t`. -/
def rowTile (t : Fin cfg2.N) : Fin 8 := ⟨t.val / 8, by have h : t.val < grid2.N := t.isLt; have := N_2; omega⟩
/-- The column tile of point `t`. -/
def colTile (t : Fin cfg2.N) : Fin 8 := ⟨t.val % 8, by omega⟩

variable (V : (c : Dev nD) → (b : Ref sig .tc) → Buf (Elt Ideal) ((c : Thread nD τ).loc b)) (c : Dev nD)

/-- The audio block at point `t` is rows `1024·(t/8) …` of the audio array. -/
theorem blk0_apply (t : Fin cfg2.N) (r k : Fin 1024) :
    (iblk2 (F := Ideal) V c 0 t : Vec Ideal S1024x1024 .bf16) (ix2 r k)
      = (V c main_v0 : S8192x1024.Idx → EReal) (ix2 (rowOf (rowTile t) r) k) := by
  obtain ⟨e00, e01, -⟩ := gridFacts t
  unfold iblk2
  rw [View.read_apply]
  show V c main_v0 _ = V c main_v0 _
  congr 1
  funext a; apply Fin.ext
  match a with
  | ⟨0, _⟩ => show win2_0.index t (0 : Fin 2) * 1024 + 1 * r.val = 1024 * (t.val / 8) + r.val; rw [e00]; omega
  | ⟨1, _⟩ => show win2_0.index t (1 : Fin 2) * 1024 + 1 * k.val = k.val; rw [e01]; omega

/-- The text block at point `t` is rows `512·(t%8) …` of the text array. -/
theorem blk1_apply (t : Fin cfg2.N) (q : Fin 512) (k : Fin 1024) :
    (iblk2 (F := Ideal) V c 1 t : Vec Ideal S512x1024 .bf16) (ix2 q k)
      = (V c main_v1 : S4096x1024.Idx → EReal) (ix2 (colOf (colTile t) q) k) := by
  obtain ⟨-, -, e10, e11, -⟩ := gridFacts t
  unfold iblk2
  rw [View.read_apply]
  show V c main_v1 _ = V c main_v1 _
  congr 1
  funext a; apply Fin.ext
  match a with
  | ⟨0, _⟩ => show win2_1.index t (0 : Fin 2) * 512 + 1 * q.val = 512 * (t.val % 8) + q.val; rw [e10]; omega
  | ⟨1, _⟩ => show win2_1.index t (1 : Fin 2) * 1024 + 1 * k.val = k.val; rw [e11]; omega

/-- The weight block at point `t` is the tile at rows `1024·(t/8) …`, columns `512·(t%8) …` of the weights. -/
theorem blk2_apply (t : Fin cfg2.N) (r : Fin 1024) (q : Fin 512) :
    (iblk2 (F := Ideal) V c 2 t : Vec Ideal S1024x512 .f32) (ix2 r q)
      = (V c main_arg2 : S8192x4096.Idx → EReal) (ix2 (rowOf (rowTile t) r) (colOf (colTile t) q)) := by
  obtain ⟨-, -, -, -, e20, e21, -⟩ := gridFacts t
  unfold iblk2
  rw [View.read_apply]
  show V c main_arg2 _ = V c main_arg2 _
  congr 1
  funext a; apply Fin.ext
  match a with
  | ⟨0, _⟩ => show win2_2.index t (0 : Fin 2) * 1024 + 1 * r.val = 1024 * (t.val / 8) + r.val; rw [e20]; omega
  | ⟨1, _⟩ => show win2_2.index t (1 : Fin 2) * 512 + 1 * q.val = 512 * (t.val % 8) + q.val; rw [e21]; omega

/-- The index block at point `t` is rows `1024·(t/8) …` of the positive index column. -/
theorem blk3_apply (t : Fin cfg2.N) (r : Fin 1024) :
    (iblk2 (F := Ideal) V c 3 t : Vec Ideal S1024x1 .i32) (ix2 r 0)
      = (V c main_v2 : S8192x1.Idx → BitVec 32) (ix2 (rowOf (rowTile t) r) 0) := by
  obtain ⟨-, -, -, -, -, -, e30, e31, -⟩ := gridFacts t
  unfold iblk2
  rw [View.read_apply]
  show V c main_v2 _ = V c main_v2 _
  congr 1
  funext a; apply Fin.ext
  match a with
  | ⟨0, _⟩ => show win2_3.index t (0 : Fin 2) * 1024 + 1 * r.val = 1024 * (t.val / 8) + r.val; rw [e30]; omega
  | ⟨1, _⟩ => show win2_3.index t (1 : Fin 2) * 1 + 1 * 0 = 0; rw [e31]

section
variable (A : Fin 8192 → Fin 1024 → EReal) (T : Fin 4096 → Fin 1024 → EReal) (W : Fin 8192 → Fin 4096 → EReal) (P : Fin 8192 → BitVec 32)
  (hA : ∀ (b : Fin 8192) (k : Fin 1024), (V c main_v0 : S8192x1024.Idx → EReal) (ix2 b k) = Cert.Spec.unit A b k)
  (hT : ∀ (c' : Fin 4096) (k : Fin 1024), (V c main_v1 : S4096x1024.Idx → EReal) (ix2 c' k) = Cert.Spec.unit T c' k)
  (hW : ∀ (b : Fin 8192) (c' : Fin 4096), (V c main_arg2 : S8192x4096.Idx → EReal) (ix2 b c') = W b c')
  (hP : ∀ b : Fin 8192, (V c main_v2 : S8192x1.Idx → BitVec 32) (ix2 b 0) = P b)
include hA hT hW hP

/-- One body step at point `t` carries the invariant of its row tile from `t % 8` column tiles to one more. -/
theorem tile_step (t : Fin cfg2.N) (s : Vec Ideal S1024x1 .f32 × Vec Ideal S1024x1 .f32)
    (hs : TileInv A T W P (rowTile t) (t.val % 8) s) :
    TileInv A T W P (rowTile t) (t.val % 8 + 1)
      (step2 (F := Ideal) (grid2.coords t) (iblk2 V c 0 t) (iblk2 V c 1 t) (iblk2 V c 2 t) (iblk2 V c 3 t) s) :=
  tileInv_step A T W P (rowTile t) (colTile t) (grid2.coords t) (gridFacts t).2.2.2.2.2.2.2.2.2.2
    (iblk2 V c 0 t) (iblk2 V c 1 t) (iblk2 V c 2 t) (iblk2 V c 3 t)
    (fun r k => (blk0_apply V c t r k).trans (hA (rowOf (rowTile t) r) k))
    (fun q k => (blk1_apply V c t q k).trans (hT (colOf (colTile t) q) k))
    (fun r q => (blk2_apply V c t r q).trans (hW (rowOf (rowTile t) r) (colOf (colTile t) q)))
    (fun r => (blk3_apply V c t r).trans (hP (rowOf (rowTile t) r)))
    s hs

/-- THE ACCUMULATION, READ: after the body at point `t` the scratch columns hold, for the point's row tile, the sums
    over the columns of the first `t % 8 + 1` column tiles. -/
theorem tile_inv : ∀ (n : ℕ) (t : Fin cfg2.N), t.val = n →
    TileInv A T W P (rowTile t) (t.val % 8 + 1) (sAt2 (F := Ideal) V c t.val t.isLt) := by
  intro n
  induction n with
  | zero =>
    intro t ht
    have h8 : t.val % 8 = 0 := by omega
    rw [sAt2_first V c t h8]
    refine tile_step V c A T W P hA hT hW hP t init2 ?_
    rw [h8]; exact tileInv_init A T W P (rowTile t)
  | succ n ih =>
    intro t ht
    by_cases h8 : t.val % 8 = 0
    · rw [sAt2_first V c t h8]
      refine tile_step V c A T W P hA hT hW hP t init2 ?_
      rw [h8]; exact tileInv_init A T W P (rowTile t)
    · rw [sAt2_later V c t h8]
      refine tile_step V c A T W P hA hT hW hP t _ ?_
      have hlt : t.val - 1 < cfg2.N := Nat.lt_of_le_of_lt (Nat.sub_le _ _) t.isLt
      have h := ih ⟨t.val - 1, hlt⟩ (by show t.val - 1 = n; omega)
      have e1 : rowTile ⟨t.val - 1, hlt⟩ = rowTile t := Fin.ext (by show (t.val - 1) / 8 = t.val / 8; omega)
      have e2 : (t.val - 1) % 8 + 1 = t.val % 8 := by omega
      rw [e1] at h
      have h' : TileInv A T W P (rowTile t) ((t.val - 1) % 8 + 1) (sAt2 (F := Ideal) V c (t.val - 1) hlt) := h
      rw [e2] at h'
      exact h'

/-- The loss column stored at a last column tile, at a row of the block: the loss of that row of the matrix. -/
theorem fin_apply (t : Fin cfg2.N) (h7 : t.val % 8 = 7) (y : S1024x1.Idx) :
    fin2 (F := Ideal) (sAt2 (F := Ideal) V c t.val t.isLt) y = Cert.Spec.lossRow A T W P (rowOf (rowTile t) (y 0)) := by
  have hinv := tile_inv V c A T W P hA hT hW hP t.val t rfl
  rw [show t.val % 8 + 1 = 8 from by omega] at hinv
  have hy : y = ix2 (y 0) 0 := by
    funext a
    match a with
    | ⟨0, _⟩ => rfl
    | ⟨1, _⟩ => exact Fin.ext (by have := idx2_lt1 y; show (y 1).val = 0; omega)
  exact (congrArg (fin2 (F := Ideal) (sAt2 (F := Ideal) V c t.val t.isLt)) hy).trans
    (tileInv_fin A T W P (rowTile t) (sAt2 (F := Ideal) V c t.val t.isLt) hinv (y 0))

/-- WHAT A LAST COLUMN TILE WRITES BACK is its block of the column of row losses. -/
theorem flushed_eq (t : Fin cfg2.N) (hf : (cfg2.win 4).flush t = true) :
    (dat2 (F := Ideal) V c).flushed 4 t
      = ((cfg2.win 4).blk t).view.read (Elt Ideal) (fun j : S8192x1.Idx => Cert.Spec.lossRow A T W P (j 0)) := by
  have h7 : t.val % 8 = 7 := (flush2_4 t).mp hf
  obtain ⟨-, -, -, -, -, -, -, -, e40, e41, -⟩ := gridFacts t
  show (cfg2.win 4).cut (grid2.coords t) ((dat2 (F := Ideal) V c).after 4 t) = _
  rw [after2_4]
  funext y
  show fin2 (F := Ideal) (sAt2 (F := Ideal) V c t.val t.isLt) y
    = Cert.Spec.lossRow A T W P ((((cfg2.win 4).blk t).view.emb y) 0)
  refine (fin_apply V c A T W P hA hT hW hP t h7 y).trans ?_
  congr 1
  apply Fin.ext
  show 1024 * (t.val / 8) + (y 0).val = win2_4.index t (0 : Fin 2) * 1024 + 1 * (y 0).val
  rw [e40]; omega
end

/-- A row of the output column is in point `t`'s block iff each coordinate is in the block's range on its axis. -/
theorem mem_blk4 (t : Fin cfg2.N) (i : S8192x1.Idx) :
    i ∈ ((cfg2.win 4).blk t).view.set
      ↔ ∀ a : Fin 2, win2_4.index t a * S1024x1.size a ≤ (i a).val ∧ (i a).val < win2_4.index t a * S1024x1.size a + S1024x1.size a := by
  show i ∈ ((View.whole main_v3).slice (win2_4.rect t)).set ↔ _
  rw [View.set_slice_whole, Rect.mem_set_unit]
  exact Iff.rfl

/-- Row `b` is written back by the last column tile of its row tile, the point `8·(b/1024) + 7`. -/
theorem cover4 (i : S8192x1.Idx) :
    ∃ t : Fin cfg2.N, (cfg2.win 4).flush t = true ∧ i ∈ ((cfg2.win 4).blk t).view.set := by
  have hi0 : (i 0).val < 8192 := idx2_lt0 i
  have hi1 : (i 1).val < 1 := idx2_lt1 i
  have hN : grid2.N = 64 := N_2
  let t : Fin cfg2.N := ⟨8 * ((i 0).val / 1024) + 7, by show 8 * ((i 0).val / 1024) + 7 < grid2.N; omega⟩
  have ht : t.val = 8 * ((i 0).val / 1024) + 7 := rfl
  obtain ⟨-, -, -, -, -, -, -, -, e40, e41, -⟩ := gridFacts t
  refine ⟨t, (flush2_4 t).mpr (by omega), ?_⟩
  rw [mem_blk4]
  intro a
  match a with
  | ⟨0, _⟩ =>
    show win2_4.index t (0 : Fin 2) * 1024 ≤ (i 0).val ∧ (i 0).val < win2_4.index t (0 : Fin 2) * 1024 + 1024
    rw [e40]; omega
  | ⟨1, _⟩ =>
    show win2_4.index t (1 : Fin 2) * 1 ≤ (i 1).val ∧ (i 1).val < win2_4.index t (1 : Fin 2) * 1 + 1
    rw [e41]; omega

/-- The output array of the contrastive call, entered with arrays that are the unit audio rows, the unit text rows,
    the weights and the positive index words: row `b` holds `lossRow b`. -/
theorem loss_value (V : (c : Dev nD) → (b : Ref sig .tc) → Buf (Elt Ideal) ((c : Thread nD τ).loc b)) (c : Dev nD)
    (A : Fin 8192 → Fin 1024 → EReal) (T : Fin 4096 → Fin 1024 → EReal) (W : Fin 8192 → Fin 4096 → EReal) (P : Fin 8192 → BitVec 32)
    (hA : ∀ (b : Fin 8192) (k : Fin 1024), (V c main_v0 : S8192x1024.Idx → EReal) (ix2 b k) = Cert.Spec.unit A b k)
    (hT : ∀ (c' : Fin 4096) (k : Fin 1024), (V c main_v1 : S4096x1024.Idx → EReal) (ix2 c' k) = Cert.Spec.unit T c' k)
    (hW : ∀ (b : Fin 8192) (c' : Fin 4096), (V c main_arg2 : S8192x4096.Idx → EReal) (ix2 b c') = W b c')
    (hP : ∀ b : Fin 8192, (V c main_v2 : S8192x1.Idx → BitVec 32) (ix2 b 0) = P b) :
    ((dat2 (F := Ideal) V c).arrAt 4 cfg2.N : S8192x1.Idx → EReal) = fun j => Cert.Spec.lossRow A T W P (j 0) :=
  (dat2 (F := Ideal) V c).arrAt_eq_of_cover 4 (fun j : S8192x1.Idx => Cert.Spec.lossRow A T W P (j 0))
    (fun t hf => flushed_eq V c A T W P hA hT hW hP t hf) cover4

end Cert.KernelIdeal.Hand

end
-- ==== Proof.KiValueMain.lean ====
/-
  The host tail of the kernel program: the mean of the loss column. The host sums the [8192, 1] column over both axes
  from the zero word and divides by the word 8192.0; over the extended reals that is the sum of the rows' losses
  divided by 8192.
-/
import proofs.«421096_j23459111371346_1_alg».proof.Proof.Gen.KernelIdeal
import proofs.«421096_j23459111371346_1_alg».proof.Proof.Spec
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The mean of a column whose row `b` holds `L b`. -/
theorem mean_tail (L : Fin 8192 → EReal) :
    Host.divf (F := Ideal) (Host.reduceAdd (F := Ideal) (fun j : S8192x1.Idx => L (j 0)) (constant S_ .f32 0x00000000#32) reducesTo_S8192x1_S_d0_1 h_S_)
        (constant S_ .f32 0x46000000#32)
      = fun _ => Ideal.div (∑ b : Fin 8192, L b) Cert.Spec.rows := by
  funext i
  show FloatOps.hostDivf (Host.reduceAdd (F := Ideal) (fun j : S8192x1.Idx => L (j 0)) (constant S_ .f32 0x00000000#32) reducesTo_S8192x1_S_d0_1 h_S_ i)
      (constant (F := Ideal) S_ .f32 0x46000000#32 i) = _
  simp only [Host.reduceAdd, Ideal.hostReduceAdd_def, Ideal.hostDivf_def]
  rw [Ideal.hostReduceAdd_total reducesTo_S8192x1_S_d0_1 (fun b => b.elim0)]
  rw [constant_apply, Ideal.ofBits_zero_f32, zero_add, sum_idx2 (fun j : S8192x1.Idx => L (j 0))]
  simp only [Fin.sum_univ_one]
  rfl

end Cert.KernelIdeal.Hand

end
-- ==== Proof.KiTop.lean ====
/-
  The idealized kernel program's result as the specification's loss of its four argument arrays.

  The two normalisation calls leave the unit audio rows and the unit text rows; the host reshapes the index words into a
  column; the contrastive call, entered with those three arrays and the weights, leaves the column of row losses; and
  the host's tail is its mean.
-/
import proofs.«421096_j23459111371346_1_alg».proof.Proof.KiRun
import proofs.«421096_j23459111371346_1_alg».proof.Proof.KiValue0
import proofs.«421096_j23459111371346_1_alg».proof.Proof.KiValue1
import proofs.«421096_j23459111371346_1_alg».proof.Proof.KiValue2c
import proofs.«421096_j23459111371346_1_alg».proof.Proof.KiValueMain
import proofs.«421096_j23459111371346_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The audio matrix, the text matrix, the weights and the index words of core `c`'s launch memory, by coordinates. -/
def argA (c : Dev nD) : Fin 8192 → Fin 1024 → EReal := fun b k => (m ((c : Thread nD τ).loc main_arg0) : S8192x1024.Idx → EReal) (ix2 b k)
def argT (c : Dev nD) : Fin 4096 → Fin 1024 → EReal := fun c' k => (m ((c : Thread nD τ).loc main_arg1) : S4096x1024.Idx → EReal) (ix2 c' k)
def argW (c : Dev nD) : Fin 8192 → Fin 4096 → EReal := fun b c' => (m ((c : Thread nD τ).loc main_arg2) : S8192x4096.Idx → EReal) (ix2 b c')
def argP (c : Dev nD) : Fin 8192 → BitVec 32 := fun b => (m ((c : Thread nD τ).loc main_arg3) : S8192.Idx → BitVec 32) (ix1 b)

/-- The reshaped index column at row `b` is the index word of row `b`. -/
theorem column_apply (x : S8192.Idx → BitVec 32) (b : Fin 8192) :
    (shapeCast S8192x1 x shapeCasts_S8192_S8192x1 : S8192x1.Idx → BitVec 32) (ix2 b 0) = x (ix1 b) :=
  shapeCast_apply x _ _ _ (by
    rw [Shape.rowMajor_val_two, Shape.rowMajor_val_one]
    show b.val = b.val * 1 + 0
    omega)

/-- The kernel program's result term is the mean loss of its arguments. -/
theorem kernel_loss (c : Dev nD) :
    Host.divf (F := Ideal) (Host.reduceAdd (F := Ideal) ((dat2 (F := Ideal) (E3 m) c).arrAt 4 cfg2.N) (constant S_ .f32 0x00000000#32) reducesTo_S8192x1_S_d0_1 h_S_)
        (constant S_ .f32 0x46000000#32)
      = fun _ => Cert.Spec.loss (argA m c) (argT m c) (argW m c) (argP m c) := by
  have hrows := loss_value (E3 m) c (argA m c) (argT m c) (argW m c) (argP m c)
    (fun b k => by
      rw [E3_main_v0 m c]
      exact norm0_value_at (E0 m) c b k)
    (fun c' k => by
      rw [E3_main_v1 m c]
      exact norm1_value_at (E1 m) c c' k)
    (fun b c' => by rw [E3_main_arg2 m c]; rfl)
    (fun b => by rw [E3_main_v2 m c]; exact column_apply _ b)
  rw [hrows]
  exact mean_tail _

end Cert.KernelIdeal.Hand

end
-- ==== Proof.RefValue.lean ====
/-
  The reference program's result as one function of the four argument arrays.

  Each stage of the reference is read at an index and identified with the matching piece of the specification:
  the clamped row norms, the unit rows, the inner products over the temperature, the indicator of the positive
  column, the weighted negative terms and their row sums, the positive logit (read by a two-coordinate gather at
  (row, index word), which under the range hypothesis on the index words is the logit at the named column),
  each row's loss, and the mean.
-/
import proofs.«421096_j23459111371346_1_alg».proof.Defs
import proofs.«421096_j23459111371346_1_alg».proof.Proof.Gen.ReferenceIdeal.Run
import proofs.«421096_j23459111371346_1_alg».proof.Proof.Gen.ReferenceIdeal.Read
import proofs.«421096_j23459111371346_1_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## Index equations: the stages' index maps at coordinates -/

theorem idx_v3_ix2 (b : Fin 8192) (k : Fin 1024) : idx_main_v3 (ix2 b k) = ix2 b (0 : Fin 1) :=
  funext fun a => Fin.ext (by match a with | ⟨0, _⟩ => rfl | ⟨1, _⟩ => rfl)

theorem idx_call0_v2_ix2 (b : Fin 8192) : idx_main_call0_v2 (ix2 b (0 : Fin 1)) = ix1 b :=
  funext fun a => Fin.ext (by match a with | ⟨0, _⟩ => rfl)

theorem idx_call0_v1_ix1 (b : Fin 8192) (k : Fin 1024) : idx_main_call0_v1 (ix1 b) k = ix2 b k :=
  funext fun a => Fin.ext (by match a with | ⟨0, _⟩ => rfl | ⟨1, _⟩ => rfl)

/-- The clamped norm of audio row `b`. -/
theorem v2_at (x0 : (⟨S8192x1024, .f32⟩ : BufTy).Contents (Elt Ideal)) (b : Fin 8192) :
    val_main_v2 (F := Ideal) x0 (ix2 b (0 : Fin 1)) = Cert.Spec.nrm (fun b k => x0 (ix2 b k)) b := by
  rw [val_main_v2_apply, val_main_v0_apply, val_main_call0_v2_apply, idx_call0_v2_ix2, val_main_call0_v1_apply,
    val_main_call0_cst_apply, val_main_v1_apply, val_main_cst_apply]
  simp only [idx_call0_v1_ix1, val_main_call0_v0_apply, Ideal.maximumf_def, Ideal.hostUnary_sqrt_def, Ideal.ofBits_def,
    Ideal.ofBits_zero_f32, zero_add, Ideal.mulf_def]
  rfl

/-- Audio row `b` scaled to unit length, entry `k`. -/
theorem v4_at (x0 : (⟨S8192x1024, .f32⟩ : BufTy).Contents (Elt Ideal)) (b : Fin 8192) (k : Fin 1024) :
    val_main_v4 (F := Ideal) x0 (ix2 b k) = Cert.Spec.unit (fun b k => x0 (ix2 b k)) b k := by
  rw [val_main_v4_apply, val_main_v3_apply, idx_v3_ix2, v2_at, Ideal.hostDivf_def]
  rfl

theorem idx_v8_ix2 (c : Fin 4096) (k : Fin 1024) : idx_main_v8 (ix2 c k) = ix2 c (0 : Fin 1) :=
  funext fun a => Fin.ext (by match a with | ⟨0, _⟩ => rfl | ⟨1, _⟩ => rfl)

theorem idx_call1_v2_ix2 (c : Fin 4096) : idx_main_call1_v2 (ix2 c (0 : Fin 1)) = ix1 c :=
  funext fun a => Fin.ext (by match a with | ⟨0, _⟩ => rfl)

theorem idx_call1_v1_ix1 (c : Fin 4096) (k : Fin 1024) : idx_main_call1_v1 (ix1 c) k = ix2 c k :=
  funext fun a => Fin.ext (by match a with | ⟨0, _⟩ => rfl | ⟨1, _⟩ => rfl)

/-- The clamped norm of text row `c`. -/
theorem v7_at (x1 : (⟨S4096x1024, .f32⟩ : BufTy).Contents (Elt Ideal)) (c : Fin 4096) :
    val_main_v7 (F := Ideal) x1 (ix2 c (0 : Fin 1)) = Cert.Spec.nrm (fun c k => x1 (ix2 c k)) c := by
  rw [val_main_v7_apply, val_main_v5_apply, val_main_call1_v2_apply, idx_call1_v2_ix2, val_main_call1_v1_apply,
    val_main_call1_cst_apply, val_main_v6_apply, val_main_cst_0_apply]
  simp only [idx_call1_v1_ix1, val_main_call1_v0_apply, Ideal.maximumf_def, Ideal.hostUnary_sqrt_def, Ideal.ofBits_def,
    Ideal.ofBits_zero_f32, zero_add, Ideal.mulf_def]
  rfl

/-- Text row `c` scaled to unit length, entry `k`. -/
theorem v9_at (x1 : (⟨S4096x1024, .f32⟩ : BufTy).Contents (Elt Ideal)) (c : Fin 4096) (k : Fin 1024) :
    val_main_v9 (F := Ideal) x1 (ix2 c k) = Cert.Spec.unit (fun c k => x1 (ix2 c k)) c k := by
  rw [val_main_v9_apply, val_main_v8_apply, idx_v8_ix2, v7_at, Ideal.hostDivf_def]
  rfl

theorem lidx_v10_ix2 (b : Fin 8192) (c : Fin 4096) (k : Fin 1024) : lidx_main_v10 (ix2 b c) k = ix2 b k :=
  funext fun a => Fin.ext (by match a with | ⟨0, _⟩ => rfl | ⟨1, _⟩ => rfl)

theorem ridx_v10_ix2 (b : Fin 8192) (c : Fin 4096) (k : Fin 1024) : ridx_main_v10 (ix2 b c) k = ix2 c k :=
  funext fun a => Fin.ext (by match a with | ⟨0, _⟩ => rfl | ⟨1, _⟩ => rfl)

/-- The logit of the pair (`b`, `c`): the inner product of the unit rows over the temperature. -/
theorem v12_at (x0 : (⟨S8192x1024, .f32⟩ : BufTy).Contents (Elt Ideal)) (x1 : (⟨S4096x1024, .f32⟩ : BufTy).Contents (Elt Ideal))
    (b : Fin 8192) (c : Fin 4096) :
    val_main_v12 (F := Ideal) x0 x1 (ix2 b c)
      = Cert.Spec.logit (fun b k => x0 (ix2 b k)) (fun c k => x1 (ix2 c k)) b c := by
  rw [val_main_v12_apply, val_main_v10_apply, val_main_v11_apply, val_main_cst_1_apply]
  simp only [lidx_v10_ix2, ridx_v10_ix2, v4_at, v9_at, Ideal.hostDivf_def, Ideal.ofBits_def]
  rfl

theorem idx_call2_v2_ix2 (b : Fin 8192) (c : Fin 4096) : idx_main_call2_v2 (ix2 b c) = ix2 b (0 : Fin 1) :=
  funext fun a => Fin.ext (by match a with | ⟨0, _⟩ => rfl | ⟨1, _⟩ => rfl)

theorem idx_call2_v0_ix2 (b : Fin 8192) : idx_main_call2_v0 (ix2 b (0 : Fin 1)) = ix1 b :=
  funext fun a => Fin.ext (by match a with | ⟨0, _⟩ => rfl)

/-- A one-bit equality test read as a number is the indicator of the equality. -/
theorem uitofp_cmpi_eq (x y : BitVec 32) :
    (FloatOps.uitofp (F := Ideal) .f32 (IntOp.cmpi .eq x y) : EReal) = if x = y then 1 else 0 := by
  show (((IntOp.cmpi .eq x y).toNat : ℝ) : EReal) = _
  unfold IntOp.cmpi
  by_cases h : x = y
  · rw [if_pos h]; subst h; simp
  · rw [if_neg h]
    have : (x == y) = false := by simpa using h
    simp [this]

/-- The indicator of row `b`'s positive column, at column `c`. -/
theorem v28_at (x3 : (⟨S8192, .i32⟩ : BufTy).Contents (Elt Ideal)) (b : Fin 8192) (c : Fin 4096) :
    val_main_v28 (F := Ideal) x3 (ix2 b c) = Cert.Spec.mask (fun b => x3 (ix1 b)) b c := by
  rw [val_main_v28_apply, val_main_call2_v4_apply, val_main_call2_v2_apply, idx_call2_v2_ix2, val_main_call2_v0_apply,
    idx_call2_v0_ix2, val_main_call2_v3_apply, val_main_call2_v1_apply, uitofp_cmpi_eq]
  rfl

/-- One weighted negative term. -/
theorem v35_at (x0 : (⟨S8192x1024, .f32⟩ : BufTy).Contents (Elt Ideal)) (x1 : (⟨S4096x1024, .f32⟩ : BufTy).Contents (Elt Ideal))
    (x2 : (⟨S8192x4096, .f32⟩ : BufTy).Contents (Elt Ideal)) (x3 : (⟨S8192, .i32⟩ : BufTy).Contents (Elt Ideal))
    (b : Fin 8192) (c : Fin 4096) :
    val_main_v35 (F := Ideal) x0 x1 x2 x3 (ix2 b c)
      = Cert.Spec.negw (fun b k => x0 (ix2 b k)) (fun c k => x1 (ix2 c k)) (fun b c => x2 (ix2 b c)) (fun b => x3 (ix1 b)) b c := by
  rw [val_main_v35_apply, val_main_v34_apply, val_main_v31_apply, v12_at, val_main_v33_apply, val_main_v32_apply,
    val_main_cst_6_apply, val_main_v30_apply, val_main_v29_apply, val_main_cst_5_apply, v28_at]
  simp only [Ideal.mulf_def, Ideal.subf_def, Ideal.hostUnary_exp_def, Ideal.ofBits_def]
  rfl

theorem idx_v36_ix1 (b : Fin 8192) (c : Fin 4096) : idx_main_v36 (ix1 b) c = ix2 b c :=
  funext fun a => Fin.ext (by match a with | ⟨0, _⟩ => rfl | ⟨1, _⟩ => rfl)

/-- Row `b`'s sum of weighted negative terms. -/
theorem v36_at (x0 : (⟨S8192x1024, .f32⟩ : BufTy).Contents (Elt Ideal)) (x1 : (⟨S4096x1024, .f32⟩ : BufTy).Contents (Elt Ideal))
    (x2 : (⟨S8192x4096, .f32⟩ : BufTy).Contents (Elt Ideal)) (x3 : (⟨S8192, .i32⟩ : BufTy).Contents (Elt Ideal))
    (b : Fin 8192) :
    val_main_v36 (F := Ideal) x0 x1 x2 x3 (ix1 b)
      = ∑ c : Fin 4096, Cert.Spec.negw (fun b k => x0 (ix2 b k)) (fun c k => x1 (ix2 c k)) (fun b c => x2 (ix2 b c))
          (fun b => x3 (ix1 b)) b c := by
  rw [val_main_v36_apply, val_main_cst_7_apply]
  simp only [idx_v36_ix1, v35_at, Ideal.ofBits_def, Ideal.ofBits_zero_f32, zero_add]

/-! ## A two-coordinate point gather read at an index

The operand is `[N, M]`, the start indices `[R, 2]`, the result `[R]`: both operand axes are collapsed, the index
vector lies along axis 1 of the start indices and its two components address operand axes 0 and 1, every slice is
one element. Result element `r` is the operand at (`idx[r, 0]`, `idx[r, 1]`), each component read signed and
clamped into its axis. -/

section PointGather
variable {α : Type}

/-- Those dimension numbers. -/
abbrev pointDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The point gather at `r`: the operand at the two clamped index components of row `r`. -/
theorem gather_point_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pointDims N M R wf) x idx (ix1 r)
      = x (ix2 ⟨min (idx (ix2 r (0 : Fin 2))).toInt.toNat (N - 1), by omega⟩
            ⟨min (idx (ix2 r (1 : Fin 2))).toInt.toNat (M - 1), by omega⟩) := by
  unfold Host.gather
  congr 1
  have h0 : (pointDims N M R wf).start (ix1 r) idx (0 : Fin 2) + (pointDims N M R wf).batchCoord (ix1 r) (0 : Fin 2)
      + (pointDims N M R wf).offCoord (ix1 r) (0 : Fin 2) = min (idx (ix2 r (0 : Fin 2))).toInt.toNat (N - 1) := by
    rw [GatherDims.batchCoord_eq_zero _ _ _ List.not_mem_nil, GatherDims.offCoord_eq_zero _ _ _
      (fun h => ((GatherDims.mem_sKept _ _).mp h).1 (show (0 : Fin 2) ∈ ([0, 1] : List (Fin 2)) by decide))]
    simp only [Nat.add_zero]
    unfold GatherDims.start
    rw [dif_pos (show (0 : Fin 2) ∈ (pointDims N M R wf).startIndexMap from (by decide : (0 : Fin 2) ∈ ([0, 1] : List (Fin 2))))]
    have hsi : (pointDims N M R wf).siIdx (ix1 r) ⟨List.idxOf (0 : Fin 2) (pointDims N M R wf).startIndexMap,
        List.idxOf_lt_length_iff.2 (by decide : (0 : Fin 2) ∈ ([0, 1] : List (Fin 2)))⟩ = ix2 r (0 : Fin 2) := by
      funext b; refine Fin.ext ?_
      match b with
      | ⟨0, _⟩ => rfl
      | ⟨1, _⟩ => rfl
    rw [hsi]
    rfl
  have h1 : (pointDims N M R wf).start (ix1 r) idx (1 : Fin 2) + (pointDims N M R wf).batchCoord (ix1 r) (1 : Fin 2)
      + (pointDims N M R wf).offCoord (ix1 r) (1 : Fin 2) = min (idx (ix2 r (1 : Fin 2))).toInt.toNat (M - 1) := by
    rw [GatherDims.batchCoord_eq_zero _ _ _ List.not_mem_nil, GatherDims.offCoord_eq_zero _ _ _
      (fun h => ((GatherDims.mem_sKept _ _).mp h).1 (show (1 : Fin 2) ∈ ([0, 1] : List (Fin 2)) by decide))]
    simp only [Nat.add_zero]
    unfold GatherDims.start
    rw [dif_pos (show (1 : Fin 2) ∈ (pointDims N M R wf).startIndexMap from (by decide : (1 : Fin 2) ∈ ([0, 1] : List (Fin 2))))]
    have hsi : (pointDims N M R wf).siIdx (ix1 r) ⟨List.idxOf (1 : Fin 2) (pointDims N M R wf).startIndexMap,
        List.idxOf_lt_length_iff.2 (by decide : (1 : Fin 2) ∈ ([0, 1] : List (Fin 2)))⟩ = ix2 r (1 : Fin 2) := by
      funext b; refine Fin.ext ?_
      match b with
      | ⟨0, _⟩ => rfl
      | ⟨1, _⟩ => rfl
    rw [hsi]
    rfl
  funext a
  refine Fin.ext ?_
  match a with
  | ⟨0, _⟩ => exact h0
  | ⟨1, _⟩ => exact h1

end PointGather

/-! ## The index words: the wrap of a non-negative index is the identity -/

/-- A word below 2³¹ read signed is its unsigned value. -/
theorem toInt_toNat_of_lt (x : BitVec 32) (h : x.toNat < 2147483648) : x.toInt.toNat = x.toNat := by
  rw [BitVec.toInt_eq_toNat_cond]
  split
  · simp
  · omega

/-- A word below 2³¹ is not negative. -/
theorem slt_zero_of_lt (x : BitVec 32) (h : x.toNat < 2147483648) : IntOp.cmpi .slt x 0#32 = 0#1 := by
  unfold IntOp.cmpi
  have : x.slt 0#32 = false := by
    rw [BitVec.slt, BitVec.toInt_eq_toNat_cond]
    simp
    omega
  simp [this]

theorem idx_v24_ix2 (b : Fin 8192) : idx_main_v24 (ix2 b (0 : Fin 1)) = ix1 b :=
  funext fun a => Fin.ext (by match a with | ⟨0, _⟩ => rfl)

theorem idx_v25_ix2 (b : Fin 8192) : idx_main_v25 (ix2 b (0 : Fin 1)) = ix1 b :=
  funext fun a => Fin.ext (by match a with | ⟨0, _⟩ => rfl)

/-- The row-number column: row `b` holds `b` (the wrap of a non-negative number is the identity). -/
theorem v24_at (b : Fin 8192) : val_main_v24 (F := Ideal) (ix2 b (0 : Fin 1)) = BitVec.ofNat 32 b.val := by
  rw [val_main_v24_apply, idx_v24_ix2, val_main_v18_apply, val_main_v15_apply, val_main_v13_apply, val_main_v14_apply,
    val_main_c_apply]
  have hb : (BitVec.ofNat 32 b.val).toNat < 2147483648 := by
    rw [BitVec.toNat_ofNat]; have := b.isLt; omega
  rw [show ((ix1 b : S8192.Idx) 0).val = b.val from rfl, slt_zero_of_lt _ hb, select_zero]

/-- The index-word column: under the range hypothesis row `b` holds the index word itself. -/
theorem v25_at (x3 : (⟨S8192, .i32⟩ : BufTy).Contents (Elt Ideal)) (b : Fin 8192) (h : (x3 (ix1 b)).toNat < 4096) :
    val_main_v25 (F := Ideal) x3 (ix2 b (0 : Fin 1)) = x3 (ix1 b) := by
  rw [val_main_v25_apply, idx_v25_ix2, val_main_v23_apply, val_main_v20_apply, val_main_v19_apply, val_main_c_3_apply,
    slt_zero_of_lt _ (by omega), select_zero]

/-- The two columns side by side: column 0 of the start indices is the row number. -/
theorem v26_at0 (x3 : (⟨S8192, .i32⟩ : BufTy).Contents (Elt Ideal)) (b : Fin 8192) :
    val_main_v26 (F := Ideal) x3 (ix2 b (0 : Fin 2)) = BitVec.ofNat 32 b.val := by
  unfold val_main_v26
  rw [concatenate_pair_apply_left (t := S8192x2) (s₁ := S8192x1) (s₂ := S8192x1) (1 : Fin 2) _ _ _ (ix2 b (0 : Fin 2)) rfl (ix2 b (0 : Fin 1))
    (fun a => by match a with | ⟨0, _⟩ => rfl | ⟨1, _⟩ => rfl)]
  exact v24_at b

/-- Column 1 of the start indices is the index word. -/
theorem v26_at1 (x3 : (⟨S8192, .i32⟩ : BufTy).Contents (Elt Ideal)) (b : Fin 8192) (h : (x3 (ix1 b)).toNat < 4096) :
    val_main_v26 (F := Ideal) x3 (ix2 b (1 : Fin 2)) = x3 (ix1 b) := by
  unfold val_main_v26
  rw [concatenate_pair_apply_right (t := S8192x2) (s₁ := S8192x1) (s₂ := S8192x1) (1 : Fin 2) _ _ _ (ix2 b (1 : Fin 2)) rfl rfl (ix2 b (0 : Fin 1))
    (fun a ha => by
      match a with
      | ⟨0, _⟩ => rfl
      | ⟨1, _⟩ => exact absurd rfl ha)
    rfl]
  exact v25_at x3 b h

/-- The positive logit of row `b`: the gather reads the logits at (`b`, index word of `b`), which is the masked
    sum over the row. -/
theorem v27_at (x0 : (⟨S8192x1024, .f32⟩ : BufTy).Contents (Elt Ideal)) (x1 : (⟨S4096x1024, .f32⟩ : BufTy).Contents (Elt Ideal))
    (x3 : (⟨S8192, .i32⟩ : BufTy).Contents (Elt Ideal)) (b : Fin 8192) (h : (x3 (ix1 b)).toNat < 4096) :
    val_main_v27 (F := Ideal) x0 x1 x3 (ix1 b)
      = Cert.Spec.pos (fun b k => x0 (ix2 b k)) (fun c k => x1 (ix2 c k)) (fun b => x3 (ix1 b)) b := by
  have e := gather_point_apply (N := 8192) (M := 4096) (R := 8192) (by decide) (by decide)
    Facts₀.gather_S8192x4096_S8192x2_S8192_n_01_n_n_01_1_11_wf (val_main_v12 (F := Ideal) x0 x1) (val_main_v26 (F := Ideal) x3) b
  have e0 : min (val_main_v26 (F := Ideal) x3 (ix2 b (0 : Fin 2))).toInt.toNat (8192 - 1) = b.val := by
    have hb : (BitVec.ofNat 32 b.val).toNat = b.val := by
      rw [BitVec.toNat_ofNat]; have := b.isLt; omega
    rw [v26_at0, toInt_toNat_of_lt _ (by rw [hb]; have := b.isLt; omega), hb]
    have := b.isLt; omega
  have e1 : min (val_main_v26 (F := Ideal) x3 (ix2 b (1 : Fin 2))).toInt.toNat (4096 - 1) = (x3 (ix1 b)).toNat := by
    rw [v26_at1 x3 b h, toInt_toNat_of_lt _ (by omega)]
    omega
  refine (show val_main_v27 (F := Ideal) x0 x1 x3 (ix1 b) = _ from e).trans ?_
  rw [Cert.Spec.pos_eq _ _ _ b h, ← v12_at]
  congr 1
  funext a
  refine Fin.ext ?_
  match a with
  | ⟨0, _⟩ => exact e0
  | ⟨1, _⟩ => exact e1

/-- Row `b`'s loss. -/
theorem v41_at (x0 : (⟨S8192x1024, .f32⟩ : BufTy).Contents (Elt Ideal)) (x1 : (⟨S4096x1024, .f32⟩ : BufTy).Contents (Elt Ideal))
    (x2 : (⟨S8192x4096, .f32⟩ : BufTy).Contents (Elt Ideal)) (x3 : (⟨S8192, .i32⟩ : BufTy).Contents (Elt Ideal))
    (b : Fin 8192) (h : (x3 (ix1 b)).toNat < 4096) :
    val_main_v41 (F := Ideal) x0 x1 x2 x3 (ix1 b)
      = Cert.Spec.lossRow (fun b k => x0 (ix2 b k)) (fun c k => x1 (ix2 c k)) (fun b c => x2 (ix2 b c))
          (fun b => x3 (ix1 b)) b := by
  rw [val_main_v41_apply, val_main_v39_apply, val_main_v40_apply, val_main_v38_apply, val_main_v37_apply, v36_at,
    v27_at x0 x1 x3 b h]
  simp only [Ideal.addf_def, Ideal.hostNegf_def, Ideal.negf_def, Ideal.hostUnary_log_def, Ideal.hostUnary_exp_def]
  rfl

/-- THE REFERENCE'S RESULT: the mean of the rows' losses. -/
theorem ref_value (x0 : (⟨S8192x1024, .f32⟩ : BufTy).Contents (Elt Ideal)) (x1 : (⟨S4096x1024, .f32⟩ : BufTy).Contents (Elt Ideal))
    (x2 : (⟨S8192x4096, .f32⟩ : BufTy).Contents (Elt Ideal)) (x3 : (⟨S8192, .i32⟩ : BufTy).Contents (Elt Ideal))
    (hP : ∀ b : Fin 8192, (x3 (ix1 b)).toNat < 4096) :
    Cert.ReferenceIdeal.Read.val_main_v43 (F := Ideal) x0 x1 x2 x3
      = fun _ => Cert.Spec.loss (fun b k => x0 (ix2 b k)) (fun c k => x1 (ix2 c k)) (fun b c => x2 (ix2 b c))
          (fun b => x3 (ix1 b)) := by
  funext i
  rw [val_main_v43_apply, val_main_v42_apply, val_main_cst_8_apply, val_main_cst_9_apply,
    ← Equiv.sum_comp (idxEquiv1 (n := 8192)).symm]
  simp only [Ideal.hostDivf_def, Ideal.ofBits_def, Ideal.ofBits_zero_f32, zero_add]
  unfold Cert.Spec.loss Cert.Spec.rows
  refine congrArg (fun s => Ideal.div s _) (Finset.sum_congr rfl fun b _ => ?_)
  exact v41_at x0 x1 x2 x3 b (hP b)

end Cert.ReferenceIdeal.RefValue

end
-- ==== Proof.PreDecode.lean ====
/-
  The precondition read back at the position table. The precondition is one bit: the conjunction of five
  all-reductions — three saying every float input entry has finite magnitude, one saying every entry of the position
  table is at least 0 read signed, one saying every entry is below 4096 read signed. When that bit is 1, each
  conjunct is 1, and an all-reduction by "and" that came out 1 met a 1 at every entry. At entry i the two integer
  conjuncts are the comparisons 0 ≤ p[i] and p[i] < 4096 of the 32-bit word p[i] read as a signed integer. A word
  whose signed reading is nonnegative has its top bit clear, so its signed and unsigned readings agree; hence the
  unsigned reading of p[i] is below 4096, which is what a column index into the 4096 text rows needs.
-/
import proofs.«421096_j23459111371346_1_alg».proof.Pre_finite_inputs
import proofs.«421096_j23459111371346_1_alg».proof.Proof.Gen.Pre_finite_inputs
import Idealize.ShloMosaic.Lib.ReduceAll
import Idealize.ShloMosaic.Lib.StableHlo.Predicate
import Idealize.ShloMosaic.Lib.ValueIdx

namespace Cert.PreDecode

open Idealize.ShloMosaic
open Cert.Pre_finite_inputs

/-- The scalar shape has one index. -/
instance : Subsingleton S_.Idx := ⟨fun a b => funext fun d => d.elim0⟩

/-- A 32-bit word that is at least 0 and below 4096, both read signed, is below 4096 read unsigned: the first
    comparison clears the top bit, so the two readings of the word agree. -/
theorem toNat_lt_of_signed (w : BitVec 32) (h0 : IntOp.cmpi .sge w 0#32 = 1#1) (h1 : IntOp.cmpi .slt w 4096#32 = 1#1) :
    w.toNat < 4096 := by
  rw [IntOp.cmpi_sge, show (0#32 : BitVec 32).toInt = 0 from by decide] at h0
  rw [IntOp.cmpi_slt, show (4096#32 : BitVec 32).toInt = 4096 from by decide] at h1
  have hc := BitVec.toInt_eq_toNat_cond w
  split at hc <;> omega

variable [Facts]

/-- Under the precondition every entry of the position table, read unsigned, is below 4096. -/
theorem pos_range {F : FTy → Type} [FloatOps F] (a0 : FVec F S8192x1024 .f32) (a1 : FVec F S4096x1024 .f32)
    (a2 : FVec F S8192x4096 .f32) (a3 : IVec S8192 32)
    (h : Cert.Pre_finite_inputs.fn (F := F) a0 a1 a2 a3 = fun _ => 1#1) :
    ∀ i : Cert.Pre_finite_inputs.S8192.Idx, (a3 i).toNat < 4096 := by
  intro i
  have e := congrFun h ValueIdx.ix0
  dsimp only [fn, fn_part1, andi] at e
  -- the bit is ((floats ∧ all (0 ≤ p)) ∧ all (p < 4096))
  obtain ⟨e1, hlt⟩ := IntOp.andi_eq_one.1 e
  obtain ⟨-, hge⟩ := IntOp.andi_eq_one.1 e1
  have hge_i := Host.reduce_andi_all _ _ _ _ _ hge i
  have hlt_i := Host.reduce_andi_all _ _ _ _ _ hlt i
  simp only [cmpi, StableHlo.Predicate.bcast_scalar _ Facts.h_S_, constantI] at hge_i hlt_i
  exact toNat_lt_of_signed _ hge_i hlt_i

end Cert.PreDecode
-- ==== Proof.lean ====
/-
  The contrastive loss kernel against its reference, over the extended reals.

  Both programs compute the mean over 8192 audio rows of  -pos + log (Σ_c exp(l)·(1 - w)·(1 - mask) + exp pos),  where
  `l` is the inner product of a unit audio row and a unit text row over the temperature, `mask` the indicator of the
  row's positive column and `pos` the logit there (Proof/Spec.lean). The kernel program normalises the two matrices in
  two calls, accumulates the two row sums over eight column tiles in a third call and takes the mean on the host; its
  temperature factor is the constant named as the reciprocal of the word the reference divides by, so the product is
  the quotient on every extended real. The reference reads the positive logit by a gather, which is the masked sum
  where every index word names a column: the precondition says so. No step needs finiteness: only commutativity and
  associativity of the sums, and `x·1 = x`, `x·0 = 0`.

  The frames: the kernel program's, at both instances, is the launch of its three calls over the pipeline library with
  each call's proof data and body triple (Proof/K*Region*.lean, Proof/K*Run.lean); the reference's is its run with the
  result dropped.
-/
import proofs.«421096_j23459111371346_1_alg».proof.Defs
import proofs.«421096_j23459111371346_1_alg».proof.Proof.Gen.Kernel
import proofs.«421096_j23459111371346_1_alg».proof.Proof.Gen.KernelIdeal
import proofs.«421096_j23459111371346_1_alg».proof.Proof.Gen.ReferenceIdeal
import proofs.«421096_j23459111371346_1_alg».proof.Proof.Gen.Pre_finite_inputs
import proofs.«421096_j23459111371346_1_alg».proof.Proof.Gen.ReferenceIdeal.Run
import proofs.«421096_j23459111371346_1_alg».proof.Proof.Gen.ReferenceIdeal.Read
import proofs.«421096_j23459111371346_1_alg».proof.Proof.KRun
import proofs.«421096_j23459111371346_1_alg».proof.Proof.KiRun
import proofs.«421096_j23459111371346_1_alg».proof.Proof.KiTop
import proofs.«421096_j23459111371346_1_alg».proof.Proof.RefValue
import proofs.«421096_j23459111371346_1_alg».proof.Proof.PreDecode
import Idealize.ShloMosaic.PureOps.IdealRules
import Idealize.ShloMosaic.Lib.ValueIdx

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's one entry: the table gives the temperature factor's name the reciprocal of the reference's divisor. -/
theorem preserves : Cert.preserves_Kernel_KernelIdeal :=
  IdealRules.named_const.statement Cert.KernelIdeal.κ "inv_temp" .f32 0x41649249#32 ((134217728 / 9395241 : ℝ) : EReal) rfl

/-- Both runs end at the specification's loss of the arguments: the kernel program's by its launch and the three calls'
    values, the reference's by its run read one operation at a time, the index words in range by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.loss (Cert.KernelIdeal.Hand.argA m c) (Cert.KernelIdeal.Hand.argT m c)
    (Cert.KernelIdeal.Hand.argW m c) (Cert.KernelIdeal.Hand.argP m c), ?_, ?_⟩
  · exact (θ_run Cert.KernelIdeal.defs _ _).mono
      (fun r h c => ⟨(h c).1.trans (Cert.KernelIdeal.Hand.kernel_loss m c), (h c).2⟩)
      (Cert.KernelIdeal.Hand.run_value m ρ)
  · refine (θ_run Cert.ReferenceIdeal.defs _ _).mono (fun r h c => ⟨(h c).1.trans ?_, (h c).2⟩)
      (Cert.ReferenceIdeal.Value.run (F := Ideal) m' ρ')
    have hP : ∀ b : Fin 8192, ((m' ((c.tc : Thread Cert.ReferenceIdeal.nD Cert.ReferenceIdeal.τ).loc Cert.ReferenceIdeal.main_arg3)
        : Cert.ReferenceIdeal.S8192.Idx → BitVec 32) (ix1 b)).toNat < 4096 := by
      intro b
      rw [(hagree c).2.2.2]
      exact Cert.PreDecode.pos_range _ _ _ _ (hpre c) (ix1 b)
    rw [Cert.ReferenceIdeal.Read.val_main_v43_eq m' c, Cert.ReferenceIdeal.RefValue.ref_value _ _ _ _ hP,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
